-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1x64 : Shape := ⟨3, ![100000, 1, 64]⟩
abbrev S1600000x1x64 : Shape := ⟨3, ![1600000, 1, 64]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x1x64 : S_.BroadcastsInDim S100000x1x64 (![] : Fin 0 → Fin S100000x1x64.rank)
  reducesTo_S100000x1x64_S_d0_1_2 : S100000x1x64.ReducesTo [0, 1, 2] S_
  h_S_ : 0 < S_.numel
  bcast_S_S1600000x1x64 : S_.BroadcastsInDim S1600000x1x64 (![] : Fin 0 → Fin S1600000x1x64.rank)
  reducesTo_S1600000x1x64_S_d0_1_2 : S1600000x1x64.ReducesTo [0, 1, 2] S_
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x1x64 .f32) (main_arg1 : FVec F S1600000x1x64 .f32) (main_arg2 : FVec F S1600000 .f32) (main_arg3 : IVec S1600000 32) (main_arg4 : FVec F S128x128 .f32) (main_arg5 : FVec F S128 .f32) : IVec S_ 1 :=
  let main_v0 : FVec F S100000x1x64 .f32 := Host.absf main_arg0
  let main_cst : FVec F S_ .f32 := constant S_ .f32 0x7F800000#32
  let main_v1 : FVec F S100000x1x64 .f32 := broadcastInDim S100000x1x64 ![] bcast_S_S100000x1x64 main_cst
  let main_v2 : IVec S100000x1x64 1 := cmpf .olt main_v0 main_v1
  let main_c : IVec S_ 1 := constantI S_ 1 1#1
  let main_v3 : IVec S_ 1 := (fun x v => Host.reduce IntOp.andi x v reducesTo_S100000x1x64_S_d0_1_2 h_S_) main_v2 main_c
  let main_v4 : FVec F S1600000x1x64 .f32 := Host.absf main_arg1
  let main_cst_0 : FVec F S_ .f32 := constant S_ .f32 0x7F800000#32
  let main_v5 : FVec F S1600000x1x64 .f32 := broadcastInDim S1600000x1x64 ![] bcast_S_S1600000x1x64 main_cst_0
  let main_v6 : IVec S1600000x1x64 1 := cmpf .olt main_v4 main_v5
  let main_c_1 : IVec S_ 1 := constantI S_ 1 1#1
  let main_v7 : IVec S_ 1 := (fun x v => Host.reduce IntOp.andi x v reducesTo_S1600000x1x64_S_d0_1_2 h_S_) main_v6 main_c_1
  let main_v8 : IVec S_ 1 := andi main_v3 main_v7
  let main_v9 : FVec F S1600000 .f32 := Host.absf main_arg2
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x1x64 : Shape := ⟨3, ![100000, 1, 64]⟩
abbrev S1600000x1x64 : Shape := ⟨3, ![1600000, 1, 64]⟩
abbrev S1600000 : Shape := ⟨1, ![1600000]⟩
abbrev S128x128 : Shape := ⟨2, ![128, 128]⟩
abbrev S128 : Shape := ⟨1, ![128]⟩
abbrev S100000x64 : Shape := ⟨2, ![100000, 64]⟩
abbrev S1600000x64 : Shape := ⟨2, ![1600000, 64]⟩
abbrev S1600000x1 : Shape := ⟨2, ![1600000, 1]⟩
abbrev S12800x64 : Shape := ⟨2, ![12800, 64]⟩
abbrev S12800x1 : Shape := ⟨2, ![12800, 1]⟩
abbrev S_ : Shape := ⟨0, ![]⟩
abbrev S100000 : Shape := ⟨1, ![100000]⟩
abbrev S100000x1 : Shape := ⟨2, ![100000, 1]⟩
abbrev S100000x65 : Shape := ⟨2, ![100000, 65]⟩
abbrev S100000x128 : Shape := ⟨2, ![100000, 128]⟩
abbrev S5000x64 : Shape := ⟨2, ![5000, 64]⟩
abbrev S5000x65 : Shape := ⟨2, ![5000, 65]⟩
abbrev S5000x128 : Shape := ⟨2, ![5000, 128]⟩
abbrev S5000x1 : Shape := ⟨2, ![5000, 1]⟩
abbrev S1x128 : Shape := ⟨2, ![1, 128]⟩
abbrev S100000x1x128 : Shape := ⟨3, ![100000, 1, 128]⟩

abbrev nBuf : Space → Nat
  | .hbm => 25
  | .vmem => 14
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .f32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S100000x64, .f32⟩
  | .hbm, ⟨7, _⟩ => ⟨S1600000x64, .f32⟩
  | .hbm, ⟨8, _⟩ => ⟨S1600000x1, .f32⟩
  | .hbm, ⟨9, _⟩ => ⟨S1600000x64, .f32⟩
  | .hbm, ⟨10, _⟩ => ⟨S_, .f32⟩
  | .hbm, ⟨11, _⟩ => ⟨S100000x64, .f32⟩
  | .hbm, ⟨12, _⟩ => ⟨S1600000x1, .i32⟩
  | .hbm, ⟨13, _⟩ => ⟨S100000x64, .f32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S100000x1, .f32⟩
  | .hbm, ⟨21, _⟩ => ⟨S100000x65, .f32⟩
  | .hbm, ⟨22, _⟩ => ⟨S128x128, .f32⟩
  | .hbm, ⟨23, _⟩ => ⟨S100000x128, .f32⟩
  | .hbm, ⟨24, _⟩ => ⟨S100000x1x128, .f32⟩
  | .local _ .vmem, ⟨0, _⟩ => ⟨S12800x64, .f32⟩
  | .local _ .vmem, ⟨1, _⟩ => ⟨S12800x64, .f32⟩
  | .local _ .vmem, ⟨2, _⟩ => ⟨S12800x1, .f32⟩
  | .local _ .vmem, ⟨3, _⟩ => ⟨S12800x1, .f32⟩
  | .local _ .vmem, ⟨4, _⟩ => ⟨S12800x64, .f32⟩
  | .local _ .vmem, ⟨5, _⟩ => ⟨S12800x64, .f32⟩
  | .local _ .vmem, ⟨6, _⟩ => ⟨S5000x64, .f32⟩
  | .local _ .vmem, ⟨7, _⟩ => ⟨S5000x64, .f32⟩
  | .local _ .vmem, ⟨8, _⟩ => ⟨S5000x65, .f32⟩
  | .local _ .vmem, ⟨9, _⟩ => ⟨S5000x65, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | _, _ => ⟨S100000x1x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12800x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x65 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S100000x1x64_S100000x64 : S100000x1x64.ShapeCasts S100000x64
  shapeCasts_S1600000x1x64_S1600000x64 : S1600000x1x64.ShapeCasts S1600000x64
  shapeCasts_S1600000_S1600000x1 : S1600000.ShapeCasts S1600000x1
  inb_S12800x64_S12800x64_0_0 : ∀ a, (![0, 0] : Fin 2 → Nat) a + S12800x64.size a ≤ S12800x64.size a
  h_S12800x64 : 0 < S12800x64.numel
  shapeCasts_S12800x64_S12800x64 : S12800x64.ShapeCasts S12800x64
  inb_S12800x1_S12800x1_0_0 : ∀ a, (![0, 0] : Fin 2 → Nat) a + S12800x1.size a ≤ S12800x1.size a
  h_S12800x1 : 0 < S12800x1.numel
  shapeCasts_S12800x1_S12800x1 : S12800x1.ShapeCasts S12800x1
  broadcasts_S12800x1_S12800x64 : S12800x1.Broadcasts S12800x64
  bcast_S_S100000x64 : S_.BroadcastsInDim S100000x64 (![] : Fin 0 → Fin S100000x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1_0 : S100000.BroadcastsInDim S100000x1 (![0] : Fin 1 → Fin S100000x1.rank)
  concatenates_S100000x64_S100000x1_S100000x65_d1 : Shape.Concatenates [S100000x64, S100000x1] S100000x65 1
  transposes_S128x128_S128x128_1_0 : S128x128.Transposes [1, 0] S128x128
  inb_S5000x65_S5000x65_0_0 : ∀ a, (![0, 0] : Fin 2 → Nat) a + S5000x65.size a ≤ S5000x65.size a
  h_S5000x65 : 0 < S5000x65.numel
  shapeCasts_S5000x65_S5000x65 : S5000x65.ShapeCasts S5000x65
  slices_S5000x65_o0_0_S5000x64 : S5000x65.Slices ![0, 0] S5000x64
  slices_S5000x65_o0_64_S5000x1 : S5000x65.Slices ![0, 64] S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S100000x128_S100000x1x128 : S100000x128.ShapeCasts S100000x1x128
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x64.size a ≤ S1600000x64.size a
  hwx0_0 : ∀ i : grid0.Coords, EltTy.bits .f32 = 32 ∨ (Rect.block (s := S1600000x64) S12800x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x1.size a ≤ S1600000x1.size a
  hwx0_1 : ∀ i : grid0.Coords, EltTy.bits .f32 = 32 ∨ (Rect.block (s := S1600000x1) S12800x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12800x64.size a ≤ S1600000x64.size a
  hwx0_2 : ∀ i : grid0.Coords, EltTy.bits .f32 = 32 ∨ (Rect.block (s := S1600000x64) S12800x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x65.size a ≤ S100000x65.size a
  hwx1_1 : ∀ i : grid1.Coords, EltTy.bits .f32 = 32 ∨ (Rect.block (s := S100000x65) S5000x65.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v1) S12800x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S12800x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S12800x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x65.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x1x64 : Shape := ⟨3, ![100000, 1, 64]⟩
abbrev S1600000x1x64 : Shape := ⟨3, ![1600000, 1, 64]⟩
abbrev S1600000 : Shape := ⟨1, ![1600000]⟩
abbrev S128x128 : Shape := ⟨2, ![128, 128]⟩
abbrev S128 : Shape := ⟨1, ![128]⟩
abbrev S1600000x1x1 : Shape := ⟨3, ![1600000, 1, 1]⟩
abbrev S_ : Shape := ⟨0, ![]⟩
abbrev S1600000x1 : Shape := ⟨2, ![1600000, 1]⟩
abbrev S100000 : Shape := ⟨1, ![100000]⟩
abbrev S100000x1x1 : Shape := ⟨3, ![100000, 1, 1]⟩
abbrev S100000x1x128 : Shape := ⟨3, ![100000, 1, 128]⟩
abbrev S1x1x128 : Shape := ⟨3, ![1, 1, 128]⟩

abbrev nBuf : Space → Nat
  | .hbm => 33
  | .vmem => 0
  | .smem => 0
  | _ => 0

abbrev bufTy : (tb : Table) → Fin (tcTables nBuf tb) → BufTy
  | .hbm, ⟨0, _⟩ => ⟨S100000x1x64, .f32⟩
  | .hbm, ⟨1, _⟩ => ⟨S1600000x1x64, .f32⟩
  | .hbm, ⟨2, _⟩ => ⟨S1600000, .f32⟩
  | .hbm, ⟨3, _⟩ => ⟨S1600000, .i32⟩
  | .hbm, ⟨4, _⟩ => ⟨S128x128, .f32⟩
  | .hbm, ⟨5, _⟩ => ⟨S128, .f32⟩
  | .hbm, ⟨6, _⟩ => ⟨S1600000x1x1, .f32⟩
  | .hbm, ⟨7, _⟩ => ⟨S1600000x1x64, .f32⟩
  | .hbm, ⟨8, _⟩ => ⟨S1600000x1x64, .f32⟩
  | .hbm, ⟨9, _⟩ => ⟨S_, .f32⟩
  | .hbm, ⟨10, _⟩ => ⟨S100000x1x64, .f32⟩
  | .hbm, ⟨11, _⟩ => ⟨S1600000x1, .i32⟩
  | .hbm, ⟨12, _⟩ => ⟨S100000x1x64, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000x1x1, .f32⟩
  | .hbm, ⟨23, _⟩ => ⟨S100000x1x64, .f32⟩
  | .hbm, ⟨24, _⟩ => ⟨S100000x1x64, .f32⟩
  | .hbm, ⟨25, _⟩ => ⟨S100000x1x128, .f32⟩
  | .hbm, ⟨26, _⟩ => ⟨S100000x1x128, .f32⟩
  | .hbm, ⟨27, _⟩ => ⟨S1x1x128, .f32⟩
  | .hbm, ⟨28, _⟩ => ⟨S100000x1x128, .f32⟩
  | .hbm, ⟨29, _⟩ => ⟨S100000x1x128, .f32⟩
  | .hbm, ⟨30, _⟩ => ⟨S_, .f32⟩
  | .hbm, ⟨31, _⟩ => ⟨S100000x1x128, .f32⟩
  | .hbm, ⟨32, _⟩ => ⟨S100000x1x128, .f32⟩
  | _, _ => ⟨S100000x1x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_cst : Ref sig .tc := ⟨.hbm, 30, rfl⟩
abbrev main_call0_v0 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S1600000_S1600000x1x1_0 : S1600000.BroadcastsInDim S1600000x1x1 (![0] : Fin 1 → Fin S1600000x1x1.rank)
  bcast_S1600000x1x1_S1600000x1x64_0_1_2 : S1600000x1x1.BroadcastsInDim S1600000x1x64 (![0, 1, 2] : Fin 3 → Fin S1600000x1x64.rank)
  bcast_S_S100000x1x64 : S_.BroadcastsInDim S100000x1x64 (![] : Fin 0 → Fin S100000x1x64.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000 : S_.BroadcastsInDim S100000 (![] : Fin 0 → Fin S100000.rank)
  bcast_S100000_S100000x1x1_0 : S100000.BroadcastsInDim S100000x1x1 (![0] : Fin 1 → Fin S100000x1x1.rank)
  bcast_S100000x1x1_S100000x1x64_0_1_2 : S100000x1x1.BroadcastsInDim S100000x1x64 (![0, 1, 2] : Fin 3 → Fin S100000x1x64.rank)
  concatenates_S100000x1x64_S100000x1x64_S100000x1x128_d2 : Shape.Concatenates [S100000x1x64, S100000x1x64] S100000x1x128 2
  bcast_S128_S1x1x128_2 : S128.BroadcastsInDim S1x1x128 (![2] : Fin 1 → Fin S1x1x128.rank)
  bcast_S1x1x128_S100000x1x128_0_1_2 : S1x1x128.BroadcastsInDim S100000x1x128 (![0, 1, 2] : Fin 3 → Fin S100000x1x128.rank)
  bcast_S_S100000x1x128 : S_.BroadcastsInDim S100000x1x128 (![] : Fin 0 → Fin S100000x1x128.rank)
  scatter_S100000x1x64_S1600000x1_S1600000x1x64_12_0_0_1_wf : ScatterDims.WF S100000x1x64 S1600000x1 S1600000x1x64 [1, 2] [0] [0] 1
  scatter_S100000_S1600000x1_S1600000_n_0_0_1_wf : ScatterDims.WF S100000 S1600000x1 S1600000 [] [0] [0] 1
  dot_S100000x1x128_S128x128_S100000x1x128_2_1_01_0_n_n_wf : DotDims.WF S100000x1x128 S128x128 S100000x1x128 [2] [1] [0, 1] [0] [] []

variable [Facts₀]

def scatter_S100000x1x64_S1600000x1_S1600000x1x64_12_0_0_1 : ScatterDims S100000x1x64 S1600000x1 S1600000x1x64 where
  updateWindowDims := [1, 2]
  insertedWindowDims := [0]
  scatterDimsToOperandDims := [0]
  indexVectorDim := 1
  wf := scatter_S100000x1x64_S1600000x1_S1600000x1x64_12_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x1x128_S128x128_S100000x1x128_2_1_01_0_n_n : DotDims S100000x1x128 S128x128 S100000x1x128 where
  lhsContracting := [2]
  rhsContracting := [1]
  lhsNonContracting := [0, 1]
  rhsNonContracting := [0]
  lhsBatch := []
  rhsBatch := []
  wf := dot_S100000x1x128_S128x128_S100000x1x128_2_1_01_0_n_n_wf

class Facts : Prop extends Facts₀ where

variable [Facts]
-- ==== Proof.Spec.lean ====
/-
  What both programs compute, as functions of the argument arrays over the extended reals.

  Per edge e the message is the edge's feature row scaled by the edge's weight. Per node n the messages of the
  edges whose destination word, read as a signed integer, is n are summed (an edge whose word names no node
  contributes nothing); cnt n counts those edges, and the neighbourhood feature is the sum divided by
  max (cnt n) 1. The node's own 64 features and those 64 are laid side by side into a row of 128, the row is
  multiplied into the weight matrix (W indexed [out, in]), the bias is added and the result is clipped below at 0.
-/
import Idealize.ShloMosaic.Lib.ValueIdx
import Idealize.ShloMosaic.PureOps.Ideal
import Idealize.ShloMosaic.PureOps.Ideal.Laws

noncomputable section

namespace Cert.Spec

open Idealize.ShloMosaic Idealize.ShloMosaic.ValueIdx

/-- The word 0.0 and the word 1.0 as extended reals; never evaluated, the same words stand on both sides. -/
abbrev zero : EReal := Ideal.ofBits .f32 0x00000000#32
abbrev one : EReal := Ideal.ofBits .f32 0x3F800000#32

/-- The edges whose destination word, read signed, is node n. -/
def edgesTo (dst : (⟨1, ![1600000]⟩ : Shape).Idx → BitVec 32) (n : Fin 100000) : Finset (Fin 1600000) :=
  Finset.univ.filter fun e : Fin 1600000 => (dst (ix1 e)).toInt = (n.val : ℤ)

/-- The summed scaled messages at node n, feature d, from the arguments as given: edge features [E, 1, 64], weights [E]. -/
def agg (ef : (⟨3, ![1600000, 1, 64]⟩ : Shape).Idx → EReal) (nw : (⟨1, ![1600000]⟩ : Shape).Idx → EReal)
    (dst : (⟨1, ![1600000]⟩ : Shape).Idx → BitVec 32) (n : Fin 100000) (d : Fin 64) : EReal :=
  zero + ∑ e ∈ edgesTo dst n, ef (ix3 e (0 : Fin 1) d) * nw (ix1 e)

/-- Entry f of node n's row of 128: its own feature for f < 64, else the mean of the incoming messages. -/
def hrow (own : Fin 100000 → Fin 64 → EReal) (sum : Fin 100000 → Fin 64 → EReal) (cnt : Fin 100000 → EReal)
    (n : Fin 100000) (f : Fin 128) : EReal :=
  if h : f.val < 64 then own n ⟨f.val, h⟩ else Ideal.div (sum n ⟨f.val - 64, by omega⟩) (max (cnt n) one)

/-- The layer's output at node n, output feature o; w f o is the weight from row entry f to output o. -/
def outAt (own sum : Fin 100000 → Fin 64 → EReal) (cnt : Fin 100000 → EReal) (w : Fin 128 → Fin 128 → EReal)
    (b : Fin 128 → EReal) (n : Fin 100000) (o : Fin 128) : EReal :=
  max ((∑ f : Fin 128, hrow own sum cnt n f * w f o) + b o) zero

/-- WHAT THE SECOND KERNEL LEAVES in its [N, 128] output, from the arrays it is launched on: the nodes' features
    [N, 64], the packed sums-and-count [N, 65] (column 64 the count), the transposed weights [in, out], the bias. -/
def combine (x0 : (⟨2, ![100000, 64]⟩ : Shape).Idx → EReal) (a65 : (⟨2, ![100000, 65]⟩ : Shape).Idx → EReal)
    (wt : (⟨2, ![128, 128]⟩ : Shape).Idx → EReal) (b : (⟨1, ![128]⟩ : Shape).Idx → EReal) :
    (⟨2, ![100000, 128]⟩ : Shape).Idx → EReal := fun i =>
  outAt (fun n d => x0 (ix2 n d)) (fun n d => a65 (ix2 n (⟨d.val, by omega⟩ : Fin 65))) (fun n => a65 (ix2 n (⟨64, by omega⟩ : Fin 65)))
    (fun f o => wt (ix2 f o)) (fun o => b (ix1 o)) ⟨(i 0).val, (i 0).isLt⟩ ⟨(i 1).val, (i 1).isLt⟩

/-- WHAT THE FIRST KERNEL LEAVES in its [E, 64] output: each edge's row times the edge's weight. -/
def scale (ef2 : (⟨2, ![1600000, 64]⟩ : Shape).Idx → EReal) (nw2 : (⟨2, ![1600000, 1]⟩ : Shape).Idx → EReal) :
    (⟨2, ![1600000, 64]⟩ : Shape).Idx → EReal := fun i =>
  ef2 i * nw2 (ix2 (⟨(i 0).val, (i 0).isLt⟩ : Fin 1600000) (0 : Fin 1))

/-- THE RESULT [N, 1, 128] as one function of the six arguments and the count vector cnt (the same scatter of ones
    in both programs, carried unopened). -/
def out (x : (⟨3, ![100000, 1, 64]⟩ : Shape).Idx → EReal) (ef : (⟨3, ![1600000, 1, 64]⟩ : Shape).Idx → EReal)
    (nw : (⟨1, ![1600000]⟩ : Shape).Idx → EReal) (dst : (⟨1, ![1600000]⟩ : Shape).Idx → BitVec 32)
    (W : (⟨2, ![128, 128]⟩ : Shape).Idx → EReal) (b : (⟨1, ![128]⟩ : Shape).Idx → EReal)
    (cnt : (⟨1, ![100000]⟩ : Shape).Idx → EReal) : (⟨3, ![100000, 1, 128]⟩ : Shape).Idx → EReal := fun i =>
  outAt (fun n d => x (ix3 n (0 : Fin 1) d)) (agg ef nw dst) (fun n => cnt (ix1 n))
    (fun f o => W (ix2 o f)) (fun o => b (ix1 o)) ⟨(i 0).val, (i 0).isLt⟩ ⟨(i 2).val, (i 2).isLt⟩

end Cert.Spec

end
-- ==== Proof.Region0.lean ====
/-
  The first kernel's output array after its region, as one function of the two arrays the region is entered with:
  every grid point writes back the rows of its block, each row of edge features times that edge's weight, and the
  125 blocks of 12800 rows tile the 1600000 rows.
-/
import proofs.«113882_j352187318566_1_alg».proof.Proof.Gen.KernelIdeal.Frame
import proofs.«113882_j352187318566_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The two arrays the region reads, at their literal types. -/
abbrev efArr (c : Dev nD) : S1600000x64.Idx → EReal := V c main_v1
abbrev nwArr (c : Dev nD) : S1600000x1.Idx → EReal := V c main_v2

theorem hz : (![0, 0] : Fin 2 → Nat) = fun _ => 0 := funext fun a => by fin_cases a <;> rfl

/-- The body's stored value at an entry: the feature entry times the row's weight. -/
theorem pay_apply (x0 : Vec Ideal S12800x64 .f32) (x1 : Vec Ideal S12800x1 .f32) (j : S12800x64.Idx) :
    k0_pay1 x0 x1 j = x0 j * x1 (ix2 (⟨(j 0).val, (j 0).isLt⟩ : Fin 12800) (0 : Fin 1)) := by
  unfold k0_pay1
  show (shapeCast S12800x64 x0 shapeCasts_S12800x64_S12800x64) j
      * (broadcastTo S12800x64 (shapeCast S12800x1 x1 shapeCasts_S12800x1_S12800x1) broadcasts_S12800x1_S12800x64) j = _
  rw [shapeCast_self, shapeCast_self]
  refine congrArg (x0 j * ·) ?_
  exact broadcastTo_apply x1 broadcasts_S12800x1_S12800x64 j _ (fun a => match a with
    | ⟨0, _⟩ => by show (j 0).val = if (12800 : Nat) = 1 then 0 else (j 0).val; rw [if_neg (by decide)]
    | ⟨1, _⟩ => by show 0 = if (1 : Nat) = 1 then 0 else (j 1).val; rw [if_pos rfl])

/-- At point t every window of the kernel sits at block row t, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point t writes back is block t of the scaled array. -/
theorem flushed_eq (c : Dev nD) (t : Fin cfg0.N) :
    (dat0 V c).flushed 2 t = ((cfg0.win 2).blk t).view.read (Elt Ideal) (Cert.Spec.scale (V c main_v1) (V c main_v2)) := by
  show (cfg0.win 2).cut (grid0.coords t) ((dat0 V c).after 2 t) = _
  rw [after0_2]
  unfold out0_2
  rw [View.canon_unit_zero hz]
  simp only [View.ld_unit_zero (S := S12800x64) hz, View.ld_unit_zero (S := S12800x1) hz]
  obtain ⟨e0, e1, e2, e3, e4, e5⟩ := idx_facts t
  funext j
  refine (pay_apply (iblk0 V c 0 t) (iblk0 V c 1 t) j).trans ?_
  show efArr V c (((cfg0.win 0).blk t).view.emb j)
      * nwArr V c (((cfg0.win 1).blk t).view.emb (ix2 (⟨(j 0).val, (j 0).isLt⟩ : Fin 12800) (0 : Fin 1)))
    = efArr V c (((cfg0.win 2).blk t).view.emb j)
      * nwArr V c (ix2 (⟨((((cfg0.win 2).blk t).view.emb j) 0).val, ((((cfg0.win 2).blk t).view.emb j) 0).isLt⟩ : Fin 1600000) (0 : Fin 1))
  have h0 : ((cfg0.win 0).blk t).view.emb j = ((cfg0.win 2).blk t).view.emb j := by
    funext a; apply Fin.ext
    match a with
    | ⟨0, _⟩ => show win0_0.index t (0 : Fin 2) * 12800 + 1 * (j 0).val = win0_2.index t (0 : Fin 2) * 12800 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (⟨(j 0).val, (j 0).isLt⟩ : Fin 12800) (0 : Fin 1))
      = ix2 (⟨((((cfg0.win 2).blk t).view.emb j) 0).val, ((((cfg0.win 2).blk t).view.emb j) 0).isLt⟩ : Fin 1600000) (0 : Fin 1) := by
    funext a; apply Fin.ext
    match a with
    | ⟨0, _⟩ => show win0_1.index t (0 : Fin 2) * 12800 + 1 * (j 0).val = win0_2.index t (0 : Fin 2) * 12800 + 1 * (j 0).val; omega
    | ⟨1, _⟩ => show win0_1.index t (1 : Fin 2) * 1 + 1 * 0 = 0; omega
  rw [h0, h1]

/-- An index of the array is in point t's block iff each coordinate is in the block's range on its axis. -/
theorem mem_blk (t : Fin cfg0.N) (i : S1600000x64.Idx) :
    i ∈ ((cfg0.win 2).blk t).view.set ↔ ∀ a : Fin 2, win0_2.index t a * S12800x64.size a ≤ (i a).val ∧ (i a).val < win0_2.index t a * S12800x64.size a + S12800x64.size a := by
  show i ∈ ((View.whole main_v3).slice (win0_2.rect t)).set ↔ _
  rw [View.set_slice_whole, Rect.mem_set_unit]
  exact Iff.rfl

/-- Row r lies in the block of point r / 12800. -/
theorem cover (i : S1600000x64.Idx) : ∃ t : Fin cfg0.N, (cfg0.win 2).flush t = true ∧ i ∈ ((cfg0.win 2).blk t).view.set := by
  have hi0 : (i 0).val < 1600000 := (i 0).isLt
  have hi1 : (i 1).val < 64 := (i 1).isLt
  have hN : (i 0).val / 12800 < cfg0.N := by show (i 0).val / 12800 < grid0.N; rw [N_0]; omega
  obtain ⟨e0, e1, e2, e3, e4, e5⟩ := idx_facts ⟨(i 0).val / 12800, hN⟩
  refine ⟨⟨(i 0).val / 12800, hN⟩, flush0_2 _, ?_⟩
  rw [mem_blk]
  intro a
  match a with
  | ⟨0, _⟩ =>
    show win0_2.index ⟨(i 0).val / 12800, hN⟩ (0 : Fin 2) * 12800 ≤ (i 0).val ∧ (i 0).val < win0_2.index ⟨(i 0).val / 12800, hN⟩ (0 : Fin 2) * 12800 + 12800
    have e4' : win0_2.index ⟨(i 0).val / 12800, hN⟩ (0 : Fin 2) = (i 0).val / 12800 := e4
    omega
  | ⟨1, _⟩ =>
    show win0_2.index ⟨(i 0).val / 12800, hN⟩ (1 : Fin 2) * 64 ≤ (i 1).val ∧ (i 1).val < win0_2.index ⟨(i 0).val / 12800, hN⟩ (1 : Fin 2) * 64 + 64
    omega

/-- After region 0 the message array holds each edge's feature row times the edge's weight. -/
theorem scale_array (c : Dev nD) :
    (dat0 V c).arrAt 2 cfg0.N = Cert.Spec.scale (V c main_v1) (V c main_v2) :=
  (dat0 V c).arrAt_eq_of_cover 2 _ (fun t _ => flushed_eq V c t) cover

end Cert.KernelIdeal.Region0

end
-- ==== Proof.Region1.lean ====
/-
  The second kernel's output array after its region, as one function of the four arrays the region is entered with.
-/
import proofs.«113882_j352187318566_1_alg».proof.Proof.Gen.KernelIdeal.Frame
import proofs.«113882_j352187318566_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The product of a block of rows with the weight matrix, read at an entry -/

/-- The left operand's index for output entry i and shared entry k keeps i's row ... -/
theorem lhs_product_0 (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- ... and takes k as its column. -/
theorem lhs_product_1 (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right operand's index takes k as its row ... -/
theorem rhs_product_0 (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- ... and keeps i's column. -/
theorem rhs_product_1 (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the product into a zero accumulator is the sum over the 128 shared entries of row p of the left
    operand against column q of the right one. -/
theorem product_apply {φ₁ φ₂ : FTy} (a : FVec Ideal S5000x128 φ₁) (b : FVec Ideal S128x128 φ₂) (p : Fin 5000) (q : Fin 128) :
    FloatOps.matmul dot_S5000x128_S128x128_S5000x128_1_0_0_1_n_n none a b (constant (F := Ideal) S5000x128 .f32 0x00000000#32) (ix2 p q)
      = ∑ k : Fin 128, a (ix2 p k) * b (ix2 k q) := by
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_product_0 _ _
    | ⟨1, _⟩ => exact (lhs_product_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_product_0 _ _).trans hk
    | ⟨1, _⟩ => exact rhs_product_1 _ _)
  rw [el, er]

/-! ## The body's arithmetic, read at an entry -/

/-- The packed sums over the count clipped below at one: entry (p, d) divides column d of row p by the larger of
    column 64 of that row and one. -/
theorem mean_apply (x1 : Vec Ideal S5000x65 .f32) (p : Fin 5000) (d : Fin 64) :
    divf (extractStridedSlice S5000x64 ![0, 0] x1 slices_S5000x65_o0_0_S5000x64)
        (broadcastTo S5000x64 (maximumf (extractStridedSlice S5000x1 ![0, 64] x1 slices_S5000x65_o0_64_S5000x1)
          (broadcast S5000x1 (FloatOps.ofBits (F := Ideal) .f32 0x3F800000#32))) broadcasts_S5000x1_S5000x64) (ix2 p d)
      = Ideal.div (x1 (ix2 p (⟨d.val, by omega⟩ : Fin 65))) (max (x1 (ix2 p (⟨64, by omega⟩ : Fin 65))) Cert.Spec.one) := by
  refine (divf_apply _ _ _).trans (congrArg₂ Ideal.div ?_ ?_)
  · exact extractStridedSlice_apply _ x1 _ (ix2 p d) (ix2 p (⟨d.val, by omega⟩ : Fin 65)) (fun a => by
      match a with
      | ⟨0, _⟩ => show p.val = 0 + p.val; omega
      | ⟨1, _⟩ => show d.val = 0 + d.val; omega)
  · refine (broadcastTo_apply _ _ (ix2 p d) (ix2 p (0 : Fin 1)) (fun a => by
      match a with
      | ⟨0, _⟩ => show p.val = if (5000 : Nat) = 1 then 0 else p.val; rw [if_neg (by decide)]
      | ⟨1, _⟩ => show 0 = if (1 : Nat) = 1 then 0 else d.val; rw [if_pos rfl])).trans ?_
    refine (maximumf_apply _ _ _).trans (congrArg₂ max ?_ rfl)
    exact extractStridedSlice_apply _ x1 _ (ix2 p (0 : Fin 1)) (ix2 p (⟨64, by omega⟩ : Fin 65)) (fun a => by
      match a with
      | ⟨0, _⟩ => show p.val = 0 + p.val; omega
      | ⟨1, _⟩ => show 64 = 64 + 0; rfl)

/-- Two blocks of 64 columns laid side by side: entry (p, f) is the first block's for f < 64, else the second's at f - 64. -/
theorem row_apply (y0 y1 : FVec Ideal S5000x64 .f32) (p : Fin 5000) (f : Fin 128) :
    concatenate S5000x128 1 [⟨S5000x64, y0⟩, ⟨S5000x64, y1⟩] concatenates_S5000x64_S5000x64_S5000x128_d1 (ix2 p f)
      = if h : f.val < 64 then y0 (ix2 p (⟨f.val, h⟩ : Fin 64)) else y1 (ix2 p (⟨f.val - 64, by omega⟩ : Fin 64)) := by
  split
  · next h =>
    exact concatenate_pair_apply_left (1 : Fin S5000x128.rank) y0 y1 _ (ix2 p f) rfl (ix2 p (⟨f.val, h⟩ : Fin 64)) (fun b => by
      match b with
      | ⟨0, _⟩ => rfl
      | ⟨1, _⟩ => rfl)
  · next h =>
    exact concatenate_pair_apply_right (1 : Fin S5000x128.rank) y0 y1 _ (ix2 p f) rfl rfl (ix2 p (⟨f.val - 64, by omega⟩ : Fin 64))
      (fun b hb => by
        match b, hb with
        | ⟨0, _⟩, _ => rfl
        | ⟨1, _⟩, hb => exact absurd rfl hb)
      (by show (f.val - 64) + 64 = f.val; omega)

/-- The bias vector laid as one row and repeated down the block: entry (p, q) is the bias at q. -/
theorem bias_apply (x3 : Vec Ideal S128 .f32) (p : Fin 5000) (q : Fin 128) :
    broadcastTo S5000x128 (shapeCast S1x128 x3 shapeCasts_S128_S1x128) broadcasts_S1x128_S5000x128 (ix2 p q) = x3 (ix1 q) :=
  (broadcastTo_1b_ab_apply _ _ p q).trans (shapeCast_a_1a_apply x3 _ (0 : Fin 1) q)

/-- Entry f of row p of the 128-wide block the product's left operand is: the node's own feature for f < 64, else
    the packed sum at f - 64 over the count clipped below at one. -/
def rowEntry (x0 : Vec Ideal S5000x64 .f32) (x1 : Vec Ideal S5000x65 .f32) (p : Fin 5000) (f : Fin 128) : EReal :=
  if h : f.val < 64 then x0 (ix2 p (⟨f.val, h⟩ : Fin 64))
  else Ideal.div (x1 (ix2 p (⟨f.val - 64, by omega⟩ : Fin 65))) (max (x1 (ix2 p (⟨64, by omega⟩ : Fin 65))) Cert.Spec.one)

/-- WHAT THE BODY COMPUTES at entry (p, q) of its block: row p's 128 entries against column q of the weights, plus
    the bias at q, clipped below at zero. -/
theorem payload_apply (x1 : Vec Ideal S5000x65 .f32) (x0 : Vec Ideal S5000x64 .f32) (x2 : Vec Ideal S128x128 .f32)
    (x3 : Vec Ideal S128 .f32) (p : Fin 5000) (q : Fin 128) :
    k1_pay1 x1 x0 x2 x3 (ix2 p q)
      = max ((∑ f : Fin 128, rowEntry x0 x1 p f * x2 (ix2 f q)) + x3 (ix1 q)) Cert.Spec.zero := by
  unfold k1_pay1
  refine (maximumf_apply _ _ _).trans (congrArg₂ max ((addf_apply _ _ _).trans (congrArg₂ (· + ·) ?_ (bias_apply x3 p q))) rfl)
  refine (product_apply _ _ p q).trans (Finset.sum_congr rfl fun f _ => ?_)
  refine congrArg₂ (· * ·) ?_ (congrFun (shapeCast_self x2 _) _)
  refine (row_apply _ _ p f).trans ?_
  unfold rowEntry
  split
  · exact congrFun (shapeCast_self x0 _) _
  · rw [shapeCast_self x1]
    exact mean_apply x1 p _

/-! ## From the blocks to the array -/

theorem zeros2 : (![0, 0] : Fin 2 → Nat) = fun _ => 0 := funext fun a => by fin_cases a <;> rfl
theorem zeros1 : (![0] : Fin 1 → Nat) = fun _ => 0 := funext fun a => by fin_cases a; rfl

/-- The index maps over the 20 grid points: the two row-blocked inputs and the output sit at block row t, column
    block 0; the weights and the bias are whole, at block 0. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0 :=
  (by decide +kernel : ∀ t : Fin grid1.N, _)

/-- Row p, column d of the node-feature block at point t is the array at row t * 5000 + p. -/
theorem features_block (c : Dev nD) (t : Fin cfg1.N) (p : Fin 5000) (d : Fin 64) (n : Fin 100000)
    (hn : n.val = t.val * 5000 + p.val) : iblk1 V c 0 t (ix2 p d) = V c main_v0 (ix2 n d) := by
  obtain ⟨e0, e1, -⟩ := index_facts t
  show V c main_v0 (((cfg1.win 0).blk t).view.emb (ix2 p d)) = V c main_v0 (ix2 n d)
  refine congrArg _ (funext fun a => Fin.ext ?_)
  match a with
  | ⟨0, _⟩ => show win1_0.index t (0 : Fin 2) * 5000 + 1 * p.val = n.val; omega
  | ⟨1, _⟩ => show win1_0.index t (1 : Fin 2) * 64 + 1 * d.val = d.val; omega

/-- Row p, column d of the packed sums-and-count block at point t is the array at row t * 5000 + p. -/
theorem packed_block (c : Dev nD) (t : Fin cfg1.N) (p : Fin 5000) (d : Fin 65) (n : Fin 100000)
    (hn : n.val = t.val * 5000 + p.val) : iblk1 V c 1 t (ix2 p d) = V c main_v12 (ix2 n d) := by
  obtain ⟨-, -, e0, e1, -⟩ := index_facts t
  show V c main_v12 (((cfg1.win 1).blk t).view.emb (ix2 p d)) = V c main_v12 (ix2 n d)
  refine congrArg _ (funext fun a => Fin.ext ?_)
  match a with
  | ⟨0, _⟩ => show win1_1.index t (0 : Fin 2) * 5000 + 1 * p.val = n.val; omega
  | ⟨1, _⟩ => show win1_1.index t (1 : Fin 2) * 65 + 1 * d.val = d.val; omega

/-- The weights' block is the whole matrix at every point. -/
theorem weights_block (c : Dev nD) (t : Fin cfg1.N) (f q : Fin 128) :
    iblk1 V c 2 t (ix2 f q) = V c main_v13 (ix2 f q) := by
  obtain ⟨-, -, -, -, e0, e1, -⟩ := index_facts t
  show V c main_v13 (((cfg1.win 2).blk t).view.emb (ix2 f q)) = V c main_v13 (ix2 f q)
  refine congrArg _ (funext fun a => Fin.ext ?_)
  match a with
  | ⟨0, _⟩ => show win1_2.index t (0 : Fin 2) * 128 + 1 * f.val = f.val; omega
  | ⟨1, _⟩ => show win1_2.index t (1 : Fin 2) * 128 + 1 * q.val = q.val; omega

/-- The bias' block is the whole vector at every point. -/
theorem bias_block (c : Dev nD) (t : Fin cfg1.N) (q : Fin 128) :
    iblk1 V c 3 t (ix1 q) = V c main_arg5 (ix1 q) := by
  obtain ⟨-, -, -, -, -, -, e0, -⟩ := index_facts t
  show V c main_arg5 (((cfg1.win 3).blk t).view.emb (ix1 q)) = V c main_arg5 (ix1 q)
  refine congrArg _ (funext fun a => Fin.ext ?_)
  match a with
  | ⟨0, _⟩ => show win1_3.index t (0 : Fin 1) * 128 + 1 * q.val = q.val; omega

/-- The layer's output read at an index whose two coordinates are named. -/
theorem combine_of_coords (A : (⟨2, ![100000, 64]⟩ : Shape).Idx → EReal) (B : (⟨2, ![100000, 65]⟩ : Shape).Idx → EReal)
    (W : (⟨2, ![128, 128]⟩ : Shape).Idx → EReal) (b : (⟨1, ![128]⟩ : Shape).Idx → EReal)
    (i : (⟨2, ![100000, 128]⟩ : Shape).Idx) (n : Fin 100000) (o : Fin 128) (hn : (i 0).val = n.val) (ho : (i 1).val = o.val) :
    Cert.Spec.combine A B W b i
      = max ((∑ f : Fin 128, Cert.Spec.hrow (fun n d => A (ix2 n d)) (fun n d => B (ix2 n (⟨d.val, by omega⟩ : Fin 65)))
          (fun n => B (ix2 n (⟨64, by omega⟩ : Fin 65))) n f * W (ix2 f o)) + b (ix1 o)) Cert.Spec.zero := by
  have en : (⟨(i 0).val, (i 0).isLt⟩ : Fin 100000) = n := Fin.ext hn
  have eo : (⟨(i 1).val, (i 1).isLt⟩ : Fin 128) = o := Fin.ext ho
  unfold Cert.Spec.combine Cert.Spec.outAt
  rw [en, eo]

/-- WHAT POINT t WRITES BACK is block t of the layer's output on the arrays the region is entered with. -/
theorem flushed_eq (c : Dev nD) (t : Fin cfg1.N) :
    (dat1 V c).flushed 4 t = ((cfg1.win 4).blk t).view.read (Elt Ideal)
      (Cert.Spec.combine (V c main_v0) (V c main_v12) (V c main_v13) (V c main_arg5)) := by
  show (cfg1.win 4).cut (grid1.coords t) ((dat1 V c).after 4 t) = _
  rw [after1_4]
  unfold out1_4
  rw [View.canon_unit_zero zeros2]
  simp only [View.ld_unit_zero (S := S5000x65) zeros2, View.ld_unit_zero (S := S5000x64) zeros2,
    View.ld_unit_zero (S := S128x128) zeros2, View.ld_unit_zero (S := S128) zeros1]
  funext j
  obtain ⟨p, q, rfl⟩ : ∃ (p : Fin 5000) (q : Fin 128), j = ix2 p q := ⟨j 0, j 1, eq_ix2 j⟩
  have ht : t.val < 20 := t.isLt
  obtain ⟨-, -, -, -, -, -, -, e0, e1⟩ := index_facts t
  have hn : (((cfg1.win 4).blk t).view.emb (ix2 p q) 0).val = t.val * 5000 + p.val := by
    show win1_4.index t (0 : Fin 2) * 5000 + 1 * p.val = _; omega
  have ho : (((cfg1.win 4).blk t).view.emb (ix2 p q) 1).val = q.val := by
    show win1_4.index t (1 : Fin 2) * 128 + 1 * q.val = _; omega
  show k1_pay1 (iblk1 V c 1 t) (iblk1 V c 0 t) (iblk1 V c 2 t) (iblk1 V c 3 t) (ix2 p q)
    = Cert.Spec.combine (V c main_v0) (V c main_v12) (V c main_v13) (V c main_arg5) (((cfg1.win 4).blk t).view.emb (ix2 p q))
  refine (payload_apply (iblk1 V c 1 t) (iblk1 V c 0 t) (iblk1 V c 2 t) (iblk1 V c 3 t) p q).trans ?_
  refine Eq.trans ?_ (combine_of_coords (V c main_v0) (V c main_v12) (V c main_v13) (V c main_arg5) _
    (⟨t.val * 5000 + p.val, by omega⟩ : Fin 100000) q hn ho).symm
  refine congrArg₂ max (congrArg₂ (· + ·) (Finset.sum_congr rfl fun f _ => congrArg₂ (· * ·) ?_ (weights_block V c t f q))
    (bias_block V c t q)) rfl
  unfold rowEntry Cert.Spec.hrow
  by_cases h : f.val < 64
  · rw [dif_pos h, dif_pos h]
    exact features_block V c t p _ _ rfl
  · rw [dif_neg h, dif_neg h]
    exact congrArg₂ Ideal.div (packed_block V c t p _ _ rfl) (congrArg₂ max (packed_block V c t p _ _ rfl) rfl)

/-- An index of the output array is in point t's block iff each coordinate is in the block's range on its axis. -/
theorem mem_block (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v14).slice (win1_4.rect t)).set ↔ _
  rw [View.set_slice_whole, Rect.mem_set_unit]
  exact Iff.rfl

/-- The 20 blocks of 5000 rows tile the 100000 rows: row r lies in the block of point r / 5000. -/
theorem blocks_cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, by show (i 0).val / 5000 < 20; omega⟩, rfl⟩
  obtain ⟨-, -, -, -, -, -, -, e0, e1⟩ := index_facts t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 128 ≤ (i 1).val ∧ (i 1).val < win1_4.index t (1 : Fin 2) * 128 + 128
    omega

/-- After region 1 the output array holds, row by row, the clipped affine image of the node's row of 128. -/
theorem combine_array (c : Dev nD) :
    (dat1 V c).arrAt 4 cfg1.N = Cert.Spec.combine (V c main_v0) (V c main_v12) (V c main_v13) (V c main_arg5) := by
  exact (dat1 V c).arrAt_eq_of_cover 4 _ (fun t _ => flushed_eq V c t) blocks_cover

end Cert.KernelIdeal.Region1

end
-- ==== Proof.LibGatherScatter.lean ====
/-
  Row gathers and row scatters read at an index.

  `x[idx]` along axis 0 of a matrix `x : [N, D]` (or of a vector `x : [N]`) at start indices `idx : [E, 1]` reads row
  `idx[e, 0]`, taken as a signed integer and clamped into `[0, N - 1]`. The accumulating scatter of updates
  `[E, D]` into `[N, D]` at the same kind of indices adds update row `e` to row `idx[e, 0]`, read signed and NOT
  clamped: a row index outside `[0, N)` drops the update. Both are stated here for any extents.
-/
import Idealize.ShloMosaic.Lib.ValueIdx
import Idealize.ShloMosaic.PureOps.Ideal

noncomputable section

namespace LibGatherScatter

open Idealize.ShloMosaic Idealize.ShloMosaic.ValueIdx

/-- The row a start index word names in an axis of extent `N`: the word as a signed integer, clamped into `[0, N - 1]`. -/
def clampRow (N : Nat) (hN : 0 < N) {w : Nat} (v : BitVec w) : Fin N := ⟨min v.toInt.toNat (N - 1), by omega⟩

section Gather
variable {α : Type}

/-- The dimension numbers of `x[idx]` along axis 0 of a matrix: rows of `D` entries, one start index per result row. -/
abbrev rowsDims (N E D : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Entry `(e, k)` of the row gather is the matrix at row `clampRow idx[e, 0]`, column `k`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (k : Fin D) :
    Host.gather (rowsDims N E D wf) x idx (ix2 e k) = x (ix2 (clampRow N hN (idx (ix2 e (0 : Fin 1)))) k) := by
  unfold Host.gather
  congr 1
  funext a
  refine Fin.ext ?_
  match a with
  | ⟨0, _⟩ =>
    show (rowsDims N E D wf).start (ix2 e k) idx 0 + (rowsDims N E D wf).batchCoord (ix2 e k) 0
      + (rowsDims N E D wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E D wf).startIndexMap from List.mem_singleton.mpr rfl)]
    have hsi : (rowsDims N E D wf).siIdx (ix2 e k) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsDims N E D wf).start (ix2 e k) idx 1 + (rowsDims N E D wf).batchCoord (ix2 e k) 1
      + (rowsDims N E D wf).offCoord (ix2 e k) 1 = k.val
    rw [GatherDims.batchCoord_eq_zero _ _ _ List.not_mem_nil]
    unfold GatherDims.start
    rw [dif_neg (show ¬ (1 : Fin 2) ∈ (rowsDims N E D wf).startIndexMap from (by decide : ¬ (1 : Fin 2) ∈ ([0] : List (Fin 2))))]
    simp only [Nat.add_zero, Nat.zero_add]
    unfold GatherDims.offCoord
    rw [dif_pos (show (1 : Fin 2) ∈ (rowsDims N E D wf).sKept from (GatherDims.mem_sKept _ _).mpr ⟨(by decide : ¬ (1 : Fin 2) ∈ ([0] : List (Fin 2))), List.not_mem_nil⟩)]
    rfl

/-- The dimension numbers of `x[idx]` of a vector: one entry per start index. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Entry `e` of the vector gather is the vector at `clampRow idx[e, 0]`. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e) = x (ix1 (clampRow N hN (idx (ix2 e (0 : Fin 1))))) := by
  unfold Host.gather
  congr 1
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Gather

section Scatter

/-- The dimension numbers of the accumulating row scatter: update row `e` goes to the row its index word names. -/
abbrev scatRowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)

theorem scat_start0 (idx : IVec ⟨2, ![E, 1]⟩ w) (e : Fin E) (k : Fin D) :
    (scatRowsDims N E D wf).start (ix2 e k) idx 0 = (idx (ix2 e (0 : Fin 1))).toInt := by
  unfold ScatterDims.start
  rw [dif_pos (show (0 : Fin 2) ∈ (scatRowsDims N E D wf).scatterDimsToOperandDims from List.mem_singleton.mpr rfl)]
  have hsi : (scatRowsDims N E D wf).siIdx (ix2 e k) ⟨List.idxOf (0 : Fin 2) (scatRowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem scat_start1 (idx : IVec ⟨2, ![E, 1]⟩ w) (e : Fin E) (k : Fin D) :
    (scatRowsDims N E D wf).start (ix2 e k) idx 1 = 0 := by
  unfold ScatterDims.start
  rw [dif_neg (show ¬ (1 : Fin 2) ∈ (scatRowsDims N E D wf).scatterDimsToOperandDims from
    (by decide : ¬ (1 : Fin 2) ∈ ([0] : List (Fin 2))))]

theorem scat_window0 (e : Fin E) (k : Fin D) : (scatRowsDims N E D wf).window (ix2 e k) 0 = 0 := by
  unfold ScatterDims.window
  rw [dif_neg]
  intro h
  have : (0 : Fin 2) ∈ (⟨2, ![N, D]⟩ : Shape).kept [0] := h
  simp [Shape.kept] at this

theorem scat_window1 (e : Fin E) (k : Fin D) : (scatRowsDims N E D wf).window (ix2 e k) 1 = k.val := by
  unfold ScatterDims.window
  rw [dif_pos (show (1 : Fin 2) ∈ (scatRowsDims N E D wf).sKept by
    show (1 : Fin 2) ∈ (⟨2, ![N, D]⟩ : Shape).kept [0]; simp [Shape.kept])]
  rfl

/-- Update `(e, k)` lands on `(n, k')` exactly when the edge's index word, read signed, is `n` and `k = k'`. -/
theorem scatter_rows_resultIdx (idx : IVec ⟨2, ![E, 1]⟩ w) (e : Fin E) (k : Fin D) (n : Fin N) (k' : Fin D) :
    (scatRowsDims N E D wf).resultIdx? (ix2 e k) idx = some (ix2 n k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h1 := congrArg (fun f => (f 1).val) h'
      simp only [scat_start0, scat_start1, scat_window0, scat_window1] at h0 h1
      have hb := hall 0
      simp only [scat_start0, scat_window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h1
        omega
    · exact absurd h (by simp)
  · rintro ⟨hn, rfl⟩
    have hall : ∀ a, 0 ≤ (scatRowsDims N E D wf).start (ix2 e k) idx a + (scatRowsDims N E D wf).window (ix2 e k) a ∧
        (scatRowsDims N E D wf).start (ix2 e k) idx a + (scatRowsDims N E D wf).window (ix2 e k) a < (⟨2, ![N, D]⟩ : Shape).size a := by
      intro a
      match a with
      | ⟨0, _⟩ =>
        show 0 ≤ (scatRowsDims N E D wf).start (ix2 e k) idx 0 + ((scatRowsDims N E D wf).window (ix2 e k) 0 : ℤ) ∧
          (scatRowsDims N E D wf).start (ix2 e k) idx 0 + ((scatRowsDims N E D wf).window (ix2 e k) 0 : ℤ) < (N : ℤ)
        rw [scat_start0, scat_window0, hn]; have := n.isLt; omega
      | ⟨1, _⟩ =>
        show 0 ≤ (scatRowsDims N E D wf).start (ix2 e k) idx 1 + ((scatRowsDims N E D wf).window (ix2 e k) 1 : ℤ) ∧
          (scatRowsDims N E D wf).start (ix2 e k) idx 1 + ((scatRowsDims N E D wf).window (ix2 e k) 1 : ℤ) < (D : ℤ)
        rw [scat_start1, scat_window1]; have := k.isLt; omega
    rw [dif_pos hall]
    congr 1
    funext a
    refine Fin.ext ?_
    match a with
    | ⟨0, _⟩ =>
      show ((scatRowsDims N E D wf).start (ix2 e k) idx 0 + ((scatRowsDims N E D wf).window (ix2 e k) 0 : ℤ)).toNat = n.val
      rw [scat_start0, scat_window0, hn]; omega
    | ⟨1, _⟩ =>
      show ((scatRowsDims N E D wf).start (ix2 e k) idx 1 + ((scatRowsDims N E D wf).window (ix2 e k) 1 : ℤ)).toNat = k.val
      rw [scat_start1, scat_window1]; omega

/-- THE ACCUMULATING ROW SCATTER READ AT `(n, d)`, on the extended reals: the operand's entry plus the sum, over the
    edges whose index word read signed is `n`, of the update's entry `(e, d)`. -/
theorem scatterAdd_rows_apply (x : (⟨2, ![N, D]⟩ : Shape).Idx → EReal) (idx : IVec ⟨2, ![E, 1]⟩ w)
    (upd : (⟨2, ![E, D]⟩ : Shape).Idx → EReal) (n : Fin N) (d : Fin D) :
    Ideal.hostScatterAdd (scatRowsDims N E D wf) x idx upd (ix2 n d)
      = x (ix2 n d) + ∑ e ∈ Finset.univ.filter (fun e : Fin E => (idx (ix2 e (0 : Fin 1))).toInt = (n.val : ℤ)), upd (ix2 e d) := by
  unfold Ideal.hostScatterAdd
  congr 1
  have key : ∀ j : (⟨2, ![E, D]⟩ : Shape).Idx, (scatRowsDims N E D wf).resultIdx? j idx = some (ix2 n d) →
      (idx (ix2 (⟨(j 0).val, idx2_lt0 j⟩ : Fin E) (0 : Fin 1))).toInt = (n.val : ℤ) ∧ j = ix2 (⟨(j 0).val, idx2_lt0 j⟩ : Fin E) d := by
    intro j hj
    have hj2 := hj
    rw [eq_ix2 j] at hj2
    have h := (scatter_rows_resultIdx wf idx (⟨(j 0).val, idx2_lt0 j⟩ : Fin E) (⟨(j 1).val, idx2_lt1 j⟩ : Fin D) n d).mp hj2
    refine ⟨h.1, ?_⟩
    rw [← h.2]; exact eq_ix2 j
  refine Finset.sum_bij' (fun j _ => (⟨(j 0).val, idx2_lt0 j⟩ : Fin E)) (fun e _ => ix2 e d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (scatter_rows_resultIdx wf idx e d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end Scatter

end LibGatherScatter

end
-- ==== Proof.Glue.lean ====
/-
  The kernel program's host operations around its two kernels, composed with what the kernels leave, as one term of
  the six arguments; and that term is the specification's function.
-/
import proofs.«113882_j352187318566_1_alg».proof.Proof.Gen.KernelIdeal
import proofs.«113882_j352187318566_1_alg».proof.Proof.Spec
import proofs.«113882_j352187318566_1_alg».proof.Proof.LibGatherScatter
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Glue

open Cert.KernelIdeal Cert.KernelIdeal.Gen Idealize.ShloMosaic Idealize.ShloMosaic.TcCoe Idealize.SL.Sem
open Idealize.ShloMosaic.ValueIdx

/-- The count vector as the kernel's program computes it: ones scattered by destination into zeros. -/
def cntK (a3 : (⟨S1600000, .i32⟩ : BufTy).Contents (Elt Ideal)) : (⟨S100000, .f32⟩ : BufTy).Contents (Elt Ideal) :=
  Host.scatterAdd scatter_S100000_S1600000x1_S1600000_n_0_0_1
    (broadcastInDim S100000 ![] bcast_S_S100000 (constant (F := Ideal) S_ .f32 0x00000000#32))
    (broadcastInDim S1600000x1 ![0] bcast_S1600000_S1600000x1_0 a3)
    (broadcastInDim S1600000 ![] bcast_S_S1600000 (constant (F := Ideal) S_ .f32 0x3F800000#32))

/-- The summed messages [N, 64]: the first kernel's output scattered by destination into zeros. -/
def summed (a1 : (⟨S1600000x1x64, .f32⟩ : BufTy).Contents (Elt Ideal)) (a2 : (⟨S1600000, .f32⟩ : BufTy).Contents (Elt Ideal))
    (a3 : (⟨S1600000, .i32⟩ : BufTy).Contents (Elt Ideal)) : (⟨S100000x64, .f32⟩ : BufTy).Contents (Elt Ideal) :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 a3)
    (Cert.Spec.scale (shapeCast S1600000x64 a1 shapeCasts_S1600000x1x64_S1600000x64) (shapeCast S1600000x1 a2 shapeCasts_S1600000_S1600000x1))

/-- The packed [N, 65] array the second kernel is launched on: the sums, then the count as column 64. -/
def packed (a1 : (⟨S1600000x1x64, .f32⟩ : BufTy).Contents (Elt Ideal)) (a2 : (⟨S1600000, .f32⟩ : BufTy).Contents (Elt Ideal))
    (a3 : (⟨S1600000, .i32⟩ : BufTy).Contents (Elt Ideal)) : (⟨S100000x65, .f32⟩ : BufTy).Contents (Elt Ideal) :=
  concatenate S100000x65 1 [⟨S100000x64, summed a1 a2 a3⟩, ⟨S100000x1, broadcastInDim S100000x1 ![0] bcast_S100000_S100000x1_0 (cntK a3)⟩]
    concatenates_S100000x64_S100000x1_S100000x65_d1

/-- The program's result [N, 1, 128] as one term of the six arguments. -/
def kernelTerm (a0 : (⟨S100000x1x64, .f32⟩ : BufTy).Contents (Elt Ideal)) (a1 : (⟨S1600000x1x64, .f32⟩ : BufTy).Contents (Elt Ideal))
    (a2 : (⟨S1600000, .f32⟩ : BufTy).Contents (Elt Ideal)) (a3 : (⟨S1600000, .i32⟩ : BufTy).Contents (Elt Ideal))
    (a4 : (⟨S128x128, .f32⟩ : BufTy).Contents (Elt Ideal)) (a5 : (⟨S128, .f32⟩ : BufTy).Contents (Elt Ideal)) :
    (⟨S100000x1x128, .f32⟩ : BufTy).Contents (Elt Ideal) :=
  shapeCast S100000x1x128
    (Cert.Spec.combine (shapeCast S100000x64 a0 shapeCasts_S100000x1x64_S100000x64) (packed a1 a2 a3)
      (transpose S128x128 [1, 0] a4 transposes_S128x128_S128x128_1_0) a5)
    shapeCasts_S100000x128_S100000x1x128

/-! ### Reshapes across a unit axis, read at coordinates

A reshape keeps the row-major position. Across a unit axis the position of `(i, 0, j)` in `[a, 1, b]` is
`(i * 1 + 0) * b + j = i * b + j`, the position of `(i, j)` in `[a, b]`; and `(i, 0)` in `[a, 1]` sits at `i * 1 + 0 = i`. -/

section Reads
variable {α : Type}

/-- An `[a, 1, b]` array viewed `[a, b]` reads, at `(i, j)`, the operand at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array viewed `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A vector `[a]` viewed as a column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Reads

/-! ### The pieces of the packed array and the weights, read at coordinates -/

/-- The destination words as a column `[E, 1]` read, at `(e, 0)`, the word of edge `e`. -/
theorem dstCol_apply (a3 : (⟨S1600000, .i32⟩ : BufTy).Contents (Elt Ideal)) (e : Fin 1600000) :
    broadcastInDim S1600000x1 ![0] bcast_S1600000_S1600000x1_0 a3 (ix2 e (0 : Fin 1)) = a3 (ix1 e) :=
  broadcastInDim_apply _ _ _ _ (ix1 e) (fun a => match a with | ⟨0, _⟩ => rfl)

/-- The scalar zero spread over `[N, 64]` reads the zero word at every entry; the word stays a word. -/
theorem zeros_apply (n : Fin 100000) (d : Fin 64) :
    broadcastInDim S100000x64 ![] bcast_S_S100000x64 (constant (F := Ideal) S_ .f32 0x00000000#32) (ix2 n d) = Cert.Spec.zero :=
  (broadcastInDim_apply _ _ _ _ ix0 (fun a => a.elim0)).trans (constant_apply _ _)

/-- The scaled message at `(e, d)`: edge `e`'s feature `d` times edge `e`'s weight, both reshapes read through. -/
theorem scale_apply (a1 : (⟨S1600000x1x64, .f32⟩ : BufTy).Contents (Elt Ideal)) (a2 : (⟨S1600000, .f32⟩ : BufTy).Contents (Elt Ideal))
    (e : Fin 1600000) (d : Fin 64) :
    Cert.Spec.scale (shapeCast S1600000x64 a1 shapeCasts_S1600000x1x64_S1600000x64) (shapeCast S1600000x1 a2 shapeCasts_S1600000_S1600000x1) (ix2 e d)
      = a1 (ix3 e (0 : Fin 1) d) * a2 (ix1 e) := by
  show shapeCast S1600000x64 a1 shapeCasts_S1600000x1x64_S1600000x64 (ix2 e d)
      * shapeCast S1600000x1 a2 shapeCasts_S1600000_S1600000x1 (ix2 e (0 : Fin 1)) = _
  rw [shapeCast_a1b_ab_apply, shapeCast_a_a1_apply]

/-- The summed messages are the exact accumulating row scatter, its dimension numbers those of a row scatter of
    extents `100000`, `1600000`, `64`. -/
theorem summed_eq (a1 : (⟨S1600000x1x64, .f32⟩ : BufTy).Contents (Elt Ideal)) (a2 : (⟨S1600000, .f32⟩ : BufTy).Contents (Elt Ideal))
    (a3 : (⟨S1600000, .i32⟩ : BufTy).Contents (Elt Ideal)) :
    summed a1 a2 a3 = Ideal.hostScatterAdd (LibGatherScatter.scatRowsDims 100000 1600000 64 scatter_S100000x64_S1600000x1_S1600000x64_1_0_0_1_wf)
      (broadcastInDim S100000x64 ![] bcast_S_S100000x64 (constant (F := Ideal) S_ .f32 0x00000000#32))
      (broadcastInDim S1600000x1 ![0] bcast_S1600000_S1600000x1_0 a3)
      (Cert.Spec.scale (shapeCast S1600000x64 a1 shapeCasts_S1600000x1x64_S1600000x64) (shapeCast S1600000x1 a2 shapeCasts_S1600000_S1600000x1)) := rfl

/-- The summed messages at node `n`, feature `d`: the zero word plus, over the edges whose destination word read
    signed is `n`, the edge's feature times the edge's weight. -/
theorem summed_apply (a1 : (⟨S1600000x1x64, .f32⟩ : BufTy).Contents (Elt Ideal)) (a2 : (⟨S1600000, .f32⟩ : BufTy).Contents (Elt Ideal))
    (a3 : (⟨S1600000, .i32⟩ : BufTy).Contents (Elt Ideal)) (n : Fin 100000) (d : Fin 64) :
    summed a1 a2 a3 (ix2 n d) = Cert.Spec.agg a1 a2 a3 n d := by
  rw [summed_eq, LibGatherScatter.scatterAdd_rows_apply, zeros_apply]
  unfold Cert.Spec.agg Cert.Spec.edgesTo
  refine congrArg (fun s : EReal => Cert.Spec.zero + s) ?_
  refine Finset.sum_congr ?_ ?_
  · ext e
    simp only [Finset.mem_filter, Finset.mem_univ, true_and]
    rw [dstCol_apply a3 e]
  · intro e _
    exact scale_apply a1 a2 e d

/-- Columns below 64 of the packed array are the summed messages. -/
theorem packed_sum (a1 : (⟨S1600000x1x64, .f32⟩ : BufTy).Contents (Elt Ideal)) (a2 : (⟨S1600000, .f32⟩ : BufTy).Contents (Elt Ideal))
    (a3 : (⟨S1600000, .i32⟩ : BufTy).Contents (Elt Ideal)) (n : Fin 100000) (d : Fin 64) :
    packed a1 a2 a3 (ix2 n (⟨d.val, by omega⟩ : Fin 65)) = Cert.Spec.agg a1 a2 a3 n d := by
  unfold packed
  refine (concatenate_pair_apply_left (t := S100000x65) (s₁ := S100000x64) (s₂ := S100000x1) (1 : Fin 2)
    (summed a1 a2 a3) (broadcastInDim S100000x1 ![0] bcast_S100000_S100000x1_0 (cntK a3))
    concatenates_S100000x64_S100000x1_S100000x65_d1 (ix2 n (⟨d.val, by omega⟩ : Fin 65)) rfl (ix2 n d)
    (fun b => match b with | ⟨0, _⟩ => rfl | ⟨1, _⟩ => rfl)).trans ?_
  exact summed_apply a1 a2 a3 n d

/-- The count vector as a column `[N, 1]` reads, at `(n, 0)`, the count of node `n`. -/
theorem cntCol_apply (a3 : (⟨S1600000, .i32⟩ : BufTy).Contents (Elt Ideal)) (n : Fin 100000) :
    broadcastInDim S100000x1 ![0] bcast_S100000_S100000x1_0 (cntK a3) (ix2 n (0 : Fin 1)) = cntK a3 (ix1 n) :=
  broadcastInDim_apply _ _ _ _ (ix1 n) (fun a => match a with | ⟨0, _⟩ => rfl)

/-- Column 64 of the packed array is the count: it falls in the second piece, at column `64 - 64 = 0`. -/
theorem packed_cnt (a1 : (⟨S1600000x1x64, .f32⟩ : BufTy).Contents (Elt Ideal)) (a2 : (⟨S1600000, .f32⟩ : BufTy).Contents (Elt Ideal))
    (a3 : (⟨S1600000, .i32⟩ : BufTy).Contents (Elt Ideal)) (n : Fin 100000) :
    packed a1 a2 a3 (ix2 n (⟨64, by omega⟩ : Fin 65)) = cntK a3 (ix1 n) := by
  unfold packed
  have hr : S100000x64.rank = S100000x65.rank := rfl
  have hr₂ : S100000x1.rank = S100000x65.rank := rfl
  have hi : ∀ b : Fin S100000x1.rank, b.cast hr₂ ≠ (1 : Fin S100000x65.rank) →
      ((ix2 n (0 : Fin 1) : S100000x1.Idx) b).val = ((ix2 n (⟨64, by omega⟩ : Fin 65) : S100000x65.Idx) (b.cast hr₂)).val := by
    intro b hb
    match b, hb with
    | ⟨0, _⟩, _ => rfl
    | ⟨1, _⟩, hb => exact absurd rfl hb
  have ha : ((ix2 n (0 : Fin 1) : S100000x1.Idx) ((1 : Fin S100000x65.rank).cast hr₂.symm)).val
      + S100000x64.size ((1 : Fin S100000x65.rank).cast hr.symm)
      = ((ix2 n (⟨64, by omega⟩ : Fin 65) : S100000x65.Idx) (1 : Fin S100000x65.rank)).val := by
    show (0 : ℕ) + 64 = 64
    rfl
  rw [concatenate_pair_apply_right (1 : Fin S100000x65.rank) (summed a1 a2 a3)
    (broadcastInDim S100000x1 ![0] bcast_S100000_S100000x1_0 (cntK a3))
    concatenates_S100000x64_S100000x1_S100000x65_d1 (ix2 n (⟨64, by omega⟩ : Fin 65)) hr hr₂ (ix2 n (0 : Fin 1)) hi ha]
  exact cntCol_apply a3 n

/-- The layer's output depends on its five row functions only through their values. -/
theorem outAt_congr {own own' sum sum' : Fin 100000 → Fin 64 → EReal} {cnt cnt' : Fin 100000 → EReal}
    {w w' : Fin 128 → Fin 128 → EReal} (b : Fin 128 → EReal) (n : Fin 100000) (o : Fin 128)
    (h1 : own = own') (h2 : sum = sum') (h3 : cnt = cnt') (h4 : w = w') :
    Cert.Spec.outAt own sum cnt w b n o = Cert.Spec.outAt own' sum' cnt' w' b n o := by
  subst h1 h2 h3 h4; rfl

/-- The program's term is the specification, with the count vector the program's own scatter of ones. -/
theorem kernelTerm_eq (a0 : (⟨S100000x1x64, .f32⟩ : BufTy).Contents (Elt Ideal)) (a1 : (⟨S1600000x1x64, .f32⟩ : BufTy).Contents (Elt Ideal))
    (a2 : (⟨S1600000, .f32⟩ : BufTy).Contents (Elt Ideal)) (a3 : (⟨S1600000, .i32⟩ : BufTy).Contents (Elt Ideal))
    (a4 : (⟨S128x128, .f32⟩ : BufTy).Contents (Elt Ideal)) (a5 : (⟨S128, .f32⟩ : BufTy).Contents (Elt Ideal)) :
    kernelTerm a0 a1 a2 a3 a4 a5 = Cert.Spec.out a0 a1 a2 a3 a4 a5 (cntK a3) := by
  funext i
  obtain ⟨n, u, o, rfl⟩ : ∃ (n : Fin 100000) (u : Fin 1) (o : Fin 128), i = ix3 n u o := ⟨i 0, i 1, i 2, eq_ix3 i⟩
  unfold kernelTerm
  refine (shapeCast_ab_a1b_apply _ _ n u o).trans ?_
  unfold Cert.Spec.combine Cert.Spec.out
  refine outAt_congr _ _ _ ?_ ?_ ?_ ?_
  · funext m d
    exact shapeCast_a1b_ab_apply a0 _ m d
  · funext m d
    exact packed_sum a1 a2 a3 m d
  · funext m
    exact packed_cnt a1 a2 a3 m
  · funext f p
    exact transpose_ix2_apply a4 _ f p

end Cert.KernelIdeal.Glue

end
-- ==== Proof.KernelValue.lean ====
/-
  The kernel program's result buffer after the run, read back through its segments: the last reshape of what the
  second kernel leaves, that kernel launched on the host operations' results over what the first kernel leaves,
  the first kernel launched on reshapes of the arguments. The composite is the term of the six arguments that the
  glue module shows to be the specification.
-/
import proofs.«113882_j352187318566_1_alg».proof.Proof.Gen.KernelIdeal.Frame
import proofs.«113882_j352187318566_1_alg».proof.Proof.Region0
import proofs.«113882_j352187318566_1_alg».proof.Proof.Region1
import proofs.«113882_j352187318566_1_alg».proof.Proof.Glue
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-! ## Region 0's entry: reshapes of the arguments -/

theorem W1_v1 (c : Dev nD) : W1 m ρ c (Proc.devRef .tc main_v1)
    = shapeCast S1600000x64 (m ((c : Thread nD τ).loc main_arg1)) shapeCasts_S1600000x1x64_S1600000x64 := by
  show StableHlo.after hostOps0 (W0 m ρ c) (Proc.devRef .tc main_v1) = _
  after_results <;> rfl

theorem W1_v2 (c : Dev nD) : W1 m ρ c (Proc.devRef .tc main_v2)
    = shapeCast S1600000x1 (m ((c : Thread nD τ).loc main_arg2)) shapeCasts_S1600000_S1600000x1 := by
  show StableHlo.after hostOps0 (W0 m ρ c) (Proc.devRef .tc main_v2) = _
  after_results <;> rfl

theorem W1_v0 (c : Dev nD) : W1 m ρ c (Proc.devRef .tc main_v0)
    = shapeCast S100000x64 (m ((c : Thread nD τ).loc main_arg0)) shapeCasts_S100000x1x64_S100000x64 := by
  show StableHlo.after hostOps0 (W0 m ρ c) (Proc.devRef .tc main_v0) = _
  after_results <;> rfl

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl

theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl

theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

/-! ## Region 0's exit: the message array is the scaled edge features; nothing else moved -/

theorem W2_v3 (c : Dev nD) : W2 m ρ c (Proc.devRef .tc main_v3)
    = Cert.Spec.scale (shapeCast S1600000x64 (m ((c : Thread nD τ).loc main_arg1)) shapeCasts_S1600000x1x64_S1600000x64)
        (shapeCast S1600000x1 (m ((c : Thread nD τ).loc main_arg2)) shapeCasts_S1600000_S1600000x1) := by
  refine (W2_arr m ρ c 2).trans ((Cert.KernelIdeal.Region0.scale_array (V1 m ρ) c).trans ?_)
  show Cert.Spec.scale (W1 m ρ c (Proc.devRef .tc main_v1)) (W1 m ρ c (Proc.devRef .tc main_v2)) = _
  rw [W1_v1, W1_v2]

theorem W2_v0 (c : Dev nD) : W2 m ρ c (Proc.devRef .tc main_v0)
    = shapeCast S100000x64 (m ((c : Thread nD τ).loc main_arg0)) shapeCasts_S100000x1x64_S100000x64 :=
  (W2_of_ne m ρ c main_v0 (by decide)).trans (W1_v0 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## Region 1's entry: the sums and the count packed side by side, the weights transposed -/

theorem W3_v12 (c : Dev nD) : W3 m ρ c (Proc.devRef .tc main_v12)
    = Cert.KernelIdeal.Glue.packed (m ((c : Thread nD τ).loc main_arg1)) (m ((c : Thread nD τ).loc main_arg2)) (m ((c : Thread nD τ).loc main_arg3)) := by
  have h : W3 m ρ c (Proc.devRef .tc main_v12)
      = concatenate S100000x65 1
          [⟨S100000x64, Host.scatterAdd scatter_S100000x64_S1600000x1_S1600000x64_1_0_0_1
              (broadcastInDim S100000x64 ![] bcast_S_S100000x64 (constant (F := Ideal) S_ .f32 0x00000000#32))
              (broadcastInDim S1600000x1 ![0] bcast_S1600000_S1600000x1_0 (W2 m ρ c (Proc.devRef .tc main_arg3)))
              (W2 m ρ c (Proc.devRef .tc main_v3))⟩,
           ⟨S100000x1, broadcastInDim S100000x1 ![0] bcast_S100000_S100000x1_0
              (Host.scatterAdd scatter_S100000_S1600000x1_S1600000_n_0_0_1
                (broadcastInDim S100000 ![] bcast_S_S100000 (constant (F := Ideal) S_ .f32 0x00000000#32))
                (broadcastInDim S1600000x1 ![0] bcast_S1600000_S1600000x1_0 (W2 m ρ c (Proc.devRef .tc main_arg3)))
                (broadcastInDim S1600000 ![] bcast_S_S1600000 (constant (F := Ideal) S_ .f32 0x3F800000#32)))⟩]
          concatenates_S100000x64_S100000x1_S100000x65_d1 := by
    show StableHlo.after hostOps1 (W2 m ρ c) (Proc.devRef .tc main_v12) = _
    after_results <;> rfl
  rw [h, W2_arg3, W2_v3]
  rfl

theorem W3_v13 (c : Dev nD) : W3 m ρ c (Proc.devRef .tc main_v13)
    = transpose S128x128 [1, 0] (m ((c : Thread nD τ).loc main_arg4)) transposes_S128x128_S128x128_1_0 := by
  have h : W3 m ρ c (Proc.devRef .tc main_v13)
      = transpose S128x128 [1, 0] (W2 m ρ c (Proc.devRef .tc main_arg4)) transposes_S128x128_S128x128_1_0 := by
    show StableHlo.after hostOps1 (W2 m ρ c) (Proc.devRef .tc main_v13) = _
    after_results <;> rfl
  rw [h, W2_arg4]

theorem W3_v0 (c : Dev nD) : W3 m ρ c (Proc.devRef .tc main_v0)
    = shapeCast S100000x64 (m ((c : Thread nD τ).loc main_arg0)) shapeCasts_S100000x1x64_S100000x64 := by
  have h : W3 m ρ c (Proc.devRef .tc main_v0) = W2 m ρ c (Proc.devRef .tc main_v0) := by
    show StableHlo.after hostOps1 (W2 m ρ c) (Proc.devRef .tc main_v0) = _
    after_results <;> rfl
  rw [h, W2_v0]

theorem W3_arg5 (c : Dev nD) : W3 m ρ c (Proc.devRef .tc main_arg5) = m ((c : Thread nD τ).loc main_arg5) := by
  have h : W3 m ρ c (Proc.devRef .tc main_arg5) = W2 m ρ c (Proc.devRef .tc main_arg5) := by
    show StableHlo.after hostOps1 (W2 m ρ c) (Proc.devRef .tc main_arg5) = _
    after_results <;> rfl
  rw [h, W2_arg5]

/-! ## Region 1's exit, and the last reshape -/

theorem W4_v14 (c : Dev nD) : W4 m ρ c (Proc.devRef .tc main_v14)
    = Cert.Spec.combine (shapeCast S100000x64 (m ((c : Thread nD τ).loc main_arg0)) shapeCasts_S100000x1x64_S100000x64)
        (Cert.KernelIdeal.Glue.packed (m ((c : Thread nD τ).loc main_arg1)) (m ((c : Thread nD τ).loc main_arg2)) (m ((c : Thread nD τ).loc main_arg3)))
        (transpose S128x128 [1, 0] (m ((c : Thread nD τ).loc main_arg4)) transposes_S128x128_S128x128_1_0)
        (m ((c : Thread nD τ).loc main_arg5)) := by
  refine (W4_arr m ρ c 4).trans ((Cert.KernelIdeal.Region1.combine_array (V3 m ρ) c).trans ?_)
  show Cert.Spec.combine (W3 m ρ c (Proc.devRef .tc main_v0)) (W3 m ρ c (Proc.devRef .tc main_v12))
    (W3 m ρ c (Proc.devRef .tc main_v13)) (W3 m ρ c (Proc.devRef .tc main_arg5)) = _
  rw [W3_v0, W3_v12, W3_v13, W3_arg5]

/-- THE RESULT BUFFER after the run is the program's term of the six arguments. -/
theorem out_eq (c : Dev nD) : W5 m ρ c (Proc.devRef .tc main_v15)
    = Cert.KernelIdeal.Glue.kernelTerm (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  have h : W5 m ρ c (Proc.devRef .tc main_v15)
      = shapeCast S100000x1x128 (W4 m ρ c (Proc.devRef .tc main_v14)) shapeCasts_S100000x128_S100000x1x128 := by
    show StableHlo.after hostOps2 (W4 m ρ c) (Proc.devRef .tc main_v15) = _
    after_results <;> rfl
  rw [h, W4_v14]
  rfl

end Cert.KernelIdeal.KernelValue

end
-- ==== Proof.LibScatterRows3.lean ====
/-
  The accumulating scatter of rows with a unit middle axis, read at an index.

  The operand is `[N, 1, D]`, the scatter indices `[E, 1]` (one word per update row), the updates `[E, 1, D]`;
  the updates' axes 1 and 2 are the window axes, operand axis 0 is the inserted one and the one the index word
  names. Update row `e` is added to row `idx[e, 0]`, the word read as a signed integer and NOT clamped: a word
  outside `[0, N)` drops the row. Stated for any extents and any index width.
-/
import Idealize.ShloMosaic.Lib.ValueIdx
import Idealize.ShloMosaic.PureOps.Ideal

noncomputable section

namespace LibScatterRows3

open Idealize.ShloMosaic Idealize.ShloMosaic.ValueIdx

/-- The dimension numbers of the accumulating scatter of rows `[E, 1, D]` into `[N, 1, D]`: update row `e` goes to the
    row its index word names. -/
abbrev scatRows3Dims (N E D : Nat)
    (wf : ScatterDims.WF ⟨3, ![N, 1, D]⟩ ⟨2, ![E, 1]⟩ ⟨3, ![E, 1, D]⟩ [1, 2] [0] [0] 1) :
    ScatterDims ⟨3, ![N, 1, D]⟩ ⟨2, ![E, 1]⟩ ⟨3, ![E, 1, D]⟩ where
  updateWindowDims := [1, 2]
  insertedWindowDims := [0]
  scatterDimsToOperandDims := [0]
  indexVectorDim := 1
  wf := wf

variable {N E D w : Nat} (wf : ScatterDims.WF ⟨3, ![N, 1, D]⟩ ⟨2, ![E, 1]⟩ ⟨3, ![E, 1, D]⟩ [1, 2] [0] [0] 1)

theorem idx3_lt0 {n0 n1 n2 : Nat} (j : (⟨3, ![n0, n1, n2]⟩ : Shape).Idx) : (j 0).val < n0 := (j 0).isLt
theorem idx3_lt2 {n0 n1 n2 : Nat} (j : (⟨3, ![n0, n1, n2]⟩ : Shape).Idx) : (j 2).val < n2 := (j 2).isLt

/-- On the row axis the window starts at the edge's index word, read signed. -/
theorem start0 (idx : IVec ⟨2, ![E, 1]⟩ w) (e : Fin E) (m : Fin 1) (k : Fin D) :
    (scatRows3Dims N E D wf).start (ix3 e m k) idx 0 = (idx (ix2 e (0 : Fin 1))).toInt := by
  unfold ScatterDims.start
  rw [dif_pos (show (0 : Fin 3) ∈ (scatRows3Dims N E D wf).scatterDimsToOperandDims from List.mem_singleton.mpr rfl)]
  have hsi : (scatRows3Dims N E D wf).siIdx (ix3 e m k)
      ⟨List.idxOf (0 : Fin 3) (scatRows3Dims N E D wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The other two axes are not named by an index word: the window starts at 0 there. -/
theorem start1 (idx : IVec ⟨2, ![E, 1]⟩ w) (e : Fin E) (m : Fin 1) (k : Fin D) :
    (scatRows3Dims N E D wf).start (ix3 e m k) idx 1 = 0 := by
  unfold ScatterDims.start
  rw [dif_neg (show ¬ (1 : Fin 3) ∈ (scatRows3Dims N E D wf).scatterDimsToOperandDims from
    (by decide : ¬ (1 : Fin 3) ∈ ([0] : List (Fin 3))))]

theorem start2 (idx : IVec ⟨2, ![E, 1]⟩ w) (e : Fin E) (m : Fin 1) (k : Fin D) :
    (scatRows3Dims N E D wf).start (ix3 e m k) idx 2 = 0 := by
  unfold ScatterDims.start
  rw [dif_neg (show ¬ (2 : Fin 3) ∈ (scatRows3Dims N E D wf).scatterDimsToOperandDims from
    (by decide : ¬ (2 : Fin 3) ∈ ([0] : List (Fin 3))))]

/-- The row axis is inserted: no window coordinate. -/
theorem window0 (e : Fin E) (m : Fin 1) (k : Fin D) : (scatRows3Dims N E D wf).window (ix3 e m k) 0 = 0 := by
  unfold ScatterDims.window
  rw [dif_neg]
  intro h
  have : (0 : Fin 3) ∈ (⟨3, ![N, 1, D]⟩ : Shape).kept [0] := h
  simp [Shape.kept] at this

/-- The unit axis takes the update's middle coordinate, which is 0. -/
theorem window1 (e : Fin E) (m : Fin 1) (k : Fin D) : (scatRows3Dims N E D wf).window (ix3 e m k) 1 = 0 := by
  unfold ScatterDims.window
  rw [dif_pos (show (1 : Fin 3) ∈ (scatRows3Dims N E D wf).sKept by
    show (1 : Fin 3) ∈ (⟨3, ![N, 1, D]⟩ : Shape).kept [0]; simp [Shape.kept])]
  show m.val = 0
  omega

/-- The feature axis takes the update's last coordinate. -/
theorem window2 (e : Fin E) (m : Fin 1) (k : Fin D) : (scatRows3Dims N E D wf).window (ix3 e m k) 2 = k.val := by
  unfold ScatterDims.window
  rw [dif_pos (show (2 : Fin 3) ∈ (scatRows3Dims N E D wf).sKept by
    show (2 : Fin 3) ∈ (⟨3, ![N, 1, D]⟩ : Shape).kept [0]; simp [Shape.kept])]
  rfl

/-- Update `(e, 0, k)` lands on `(n, 0, k')` exactly when the edge's index word, read signed, is `n` and `k = k'`. -/
theorem resultIdx_iff (idx : IVec ⟨2, ![E, 1]⟩ w) (e : Fin E) (m : Fin 1) (k : Fin D) (n : Fin N) (k' : Fin D) :
    (scatRows3Dims N E D wf).resultIdx? (ix3 e m k) idx = some (ix3 n (0 : Fin 1) k')
      ↔ (idx (ix2 e (0 : Fin 1))).toInt = (n.val : ℤ) ∧ k = k' := by
  unfold ScatterDims.resultIdx?
  constructor
  · intro h
    split at h
    · rename_i hall
      have h' := Option.some.inj h
      have h0 := congrArg (fun f => (f 0).val) h'
      have h2 := congrArg (fun f => (f 2).val) h'
      simp only [start0, start2, window0, window2] at h0 h2
      have hb := hall 0
      simp only [start0, window0] at hb
      refine ⟨?_, Fin.ext ?_⟩
      · have : ((idx (ix2 e (0 : Fin 1))).toInt + ((0 : Nat) : ℤ)).toNat = n.val := h0
        omega
      · have : ((0 : ℤ) + ((k.val : Nat) : ℤ)).toNat = k'.val := h2
        omega
    · exact absurd h (by simp)
  · rintro ⟨hn, rfl⟩
    have hall : ∀ a, 0 ≤ (scatRows3Dims N E D wf).start (ix3 e m k) idx a + (scatRows3Dims N E D wf).window (ix3 e m k) a ∧
        (scatRows3Dims N E D wf).start (ix3 e m k) idx a + (scatRows3Dims N E D wf).window (ix3 e m k) a
          < (⟨3, ![N, 1, D]⟩ : Shape).size a := by
      intro a
      match a with
      | ⟨0, _⟩ =>
        show 0 ≤ (scatRows3Dims N E D wf).start (ix3 e m k) idx 0 + ((scatRows3Dims N E D wf).window (ix3 e m k) 0 : ℤ) ∧
          (scatRows3Dims N E D wf).start (ix3 e m k) idx 0 + ((scatRows3Dims N E D wf).window (ix3 e m k) 0 : ℤ) < (N : ℤ)
        rw [start0, window0, hn]; have := n.isLt; omega
      | ⟨1, _⟩ =>
        show 0 ≤ (scatRows3Dims N E D wf).start (ix3 e m k) idx 1 + ((scatRows3Dims N E D wf).window (ix3 e m k) 1 : ℤ) ∧
          (scatRows3Dims N E D wf).start (ix3 e m k) idx 1 + ((scatRows3Dims N E D wf).window (ix3 e m k) 1 : ℤ) < ((1 : Nat) : ℤ)
        rw [start1, window1]; omega
      | ⟨2, _⟩ =>
        show 0 ≤ (scatRows3Dims N E D wf).start (ix3 e m k) idx 2 + ((scatRows3Dims N E D wf).window (ix3 e m k) 2 : ℤ) ∧
          (scatRows3Dims N E D wf).start (ix3 e m k) idx 2 + ((scatRows3Dims N E D wf).window (ix3 e m k) 2 : ℤ) < (D : ℤ)
        rw [start2, window2]; have := k.isLt; omega
    rw [dif_pos hall]
    congr 1
    funext a
    refine Fin.ext ?_
    match a with
    | ⟨0, _⟩ =>
      show ((scatRows3Dims N E D wf).start (ix3 e m k) idx 0 + ((scatRows3Dims N E D wf).window (ix3 e m k) 0 : ℤ)).toNat = n.val
      rw [start0, window0, hn]; omega
    | ⟨1, _⟩ =>
      show ((scatRows3Dims N E D wf).start (ix3 e m k) idx 1 + ((scatRows3Dims N E D wf).window (ix3 e m k) 1 : ℤ)).toNat = 0
      rw [start1, window1]; omega
    | ⟨2, _⟩ =>
      show ((scatRows3Dims N E D wf).start (ix3 e m k) idx 2 + ((scatRows3Dims N E D wf).window (ix3 e m k) 2 : ℤ)).toNat = k.val
      rw [start2, window2]; omega

/-- THE ACCUMULATING SCATTER OF ROWS `[E, 1, D]` INTO `[N, 1, D]` READ AT `(n, 0, d)`, on the extended reals: the operand's
    entry plus the sum, over the edges whose index word read signed is `n`, of the update's entry `(e, 0, d)`. -/
theorem scatterAdd_rows3_apply (x : (⟨3, ![N, 1, D]⟩ : Shape).Idx → EReal) (idx : IVec ⟨2, ![E, 1]⟩ w)
    (upd : (⟨3, ![E, 1, D]⟩ : Shape).Idx → EReal) (n : Fin N) (d : Fin D) :
    Ideal.hostScatterAdd (scatRows3Dims N E D wf) x idx upd (ix3 n (0 : Fin 1) d)
      = x (ix3 n (0 : Fin 1) d)
        + ∑ e ∈ Finset.univ.filter (fun e : Fin E => (idx (ix2 e (0 : Fin 1))).toInt = (n.val : ℤ)),
            upd (ix3 e (0 : Fin 1) d) := by
  unfold Ideal.hostScatterAdd
  congr 1
  have key : ∀ j : (⟨3, ![E, 1, D]⟩ : Shape).Idx,
      (scatRows3Dims N E D wf).resultIdx? j idx = some (ix3 n (0 : Fin 1) d) →
      (idx (ix2 (⟨(j 0).val, idx3_lt0 j⟩ : Fin E) (0 : Fin 1))).toInt = (n.val : ℤ)
        ∧ j = ix3 (⟨(j 0).val, idx3_lt0 j⟩ : Fin E) (0 : Fin 1) d := by
    intro j hj
    have hj2 := hj
    rw [eq_ix3 j] at hj2
    have h := (resultIdx_iff wf idx (⟨(j 0).val, idx3_lt0 j⟩ : Fin E) (j 1) (⟨(j 2).val, idx3_lt2 j⟩ : Fin D) n d).mp hj2
    refine ⟨h.1, ?_⟩
    funext a
    refine Fin.ext ?_
    match a with
    | ⟨0, _⟩ => rfl
    | ⟨1, _⟩ =>
      have h1 : (j 1).val < 1 := (j 1).isLt
      show (j 1).val = 0
      omega
    | ⟨2, _⟩ => exact congrArg Fin.val h.2
  refine Finset.sum_bij' (fun j _ => (⟨(j 0).val, idx3_lt0 j⟩ : Fin E)) (fun e _ => ix3 e (0 : Fin 1) d) ?_ ?_ ?_ ?_ ?_
  · intro j hj
    exact Finset.mem_filter.mpr ⟨Finset.mem_univ _, (key j (Finset.mem_filter.mp hj).2).1⟩
  · intro e he
    exact Finset.mem_filter.mpr ⟨Finset.mem_univ _,
      (resultIdx_iff wf idx e (0 : Fin 1) d n d).mpr ⟨(Finset.mem_filter.mp he).2, rfl⟩⟩
  · intro j hj
    exact ((key j (Finset.mem_filter.mp hj).2).2).symm
  · intro e _; rfl
  · intro j hj
    exact congrArg upd (key j (Finset.mem_filter.mp hj).2).2

end LibScatterRows3

end
-- ==== Proof.RefValue.lean ====
/-
  The reference's result, stage by stage, is the specification's function of the six arguments.
-/
import proofs.«113882_j352187318566_1_alg».proof.Proof.Gen.ReferenceIdeal.Run
import proofs.«113882_j352187318566_1_alg».proof.Proof.Gen.ReferenceIdeal.Read
import proofs.«113882_j352187318566_1_alg».proof.Proof.Spec
import proofs.«113882_j352187318566_1_alg».proof.Proof.LibScatterRows3
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.TcCoe Idealize.SL.Sem
open Idealize.ShloMosaic.ValueIdx

/-! ## Where each stage reads its operands: the composed index maps are the plain coordinate tuples -/

/-- The bias, broadcast twice, is read at the output feature. -/
theorem bias_idx (i : S100000x1x128.Idx) :
    idx_main_v17 (idx_main_v18 i) = ix1 (⟨(i 2).val, (i 2).isLt⟩ : Fin 128) :=
  funext fun a => match a with | ⟨0, _⟩ => rfl

/-- The weight matrix is read at (output feature, contracted position). -/
theorem w_idx (i : S100000x1x128.Idx) (k : Fin 128) :
    ridx_main_v16 i k = ix2 (⟨(i 2).val, (i 2).isLt⟩ : Fin 128) k :=
  funext fun a => match a with | ⟨0, _⟩ => rfl | ⟨1, _⟩ => rfl

/-- The clipped count, broadcast twice, is read at the node. -/
theorem cnt_idx (n : Fin 100000) (d : Fin 64) :
    idx_main_v12 (idx_main_v13 (ix3 n (0 : Fin 1) d)) = ix1 n :=
  funext fun a => match a with | ⟨0, _⟩ => rfl

/-- The destination words, given a unit axis, are read at the edge. -/
theorem dst_idx (e : Fin 1600000) : idx_main_v4 (ix2 e (0 : Fin 1)) = ix1 e :=
  funext fun a => match a with | ⟨0, _⟩ => rfl

/-- The edge weights, broadcast twice, are read at the edge. -/
theorem wt_idx (e : Fin 1600000) (d : Fin 64) :
    idx_main_v0 (idx_main_v1 (ix3 e (0 : Fin 1) d)) = ix1 e :=
  funext fun a => match a with | ⟨0, _⟩ => rfl

/-! ## The stages the read-at-an-index lemmas leave out -/

/-- The first scatter is the accumulating row scatter at the general record's dimension numbers. -/
theorem v5_eq (x1 : (⟨S1600000x1x64, .f32⟩ : BufTy).Contents (Elt Ideal))
    (x2 : (⟨S1600000, .f32⟩ : BufTy).Contents (Elt Ideal)) (x3 : (⟨S1600000, .i32⟩ : BufTy).Contents (Elt Ideal)) :
    val_main_v5 (F := Ideal) x1 x2 x3
      = Ideal.hostScatterAdd (LibScatterRows3.scatRows3Dims 100000 1600000 64
          Facts₀.scatter_S100000x1x64_S1600000x1_S1600000x1x64_12_0_0_1_wf)
          (val_main_v3 (F := Ideal)) (val_main_v4 (F := Ideal) x3) (val_main_v2 (F := Ideal) x1 x2) := rfl

/-- The first scatter at `(n, 0, d)`: the word 0.0 plus the sum, over the edges whose destination word read signed is
    `n`, of the edge's feature `d` times the edge's weight. -/
theorem v5_apply (x1 : (⟨S1600000x1x64, .f32⟩ : BufTy).Contents (Elt Ideal))
    (x2 : (⟨S1600000, .f32⟩ : BufTy).Contents (Elt Ideal)) (x3 : (⟨S1600000, .i32⟩ : BufTy).Contents (Elt Ideal))
    (n : Fin 100000) (d : Fin 64) :
    val_main_v5 (F := Ideal) x1 x2 x3 (ix3 n (0 : Fin 1) d) = Cert.Spec.agg x1 x2 x3 n d := by
  rw [v5_eq, LibScatterRows3.scatterAdd_rows3_apply, val_main_v3_apply, val_main_cst_apply, Ideal.ofBits_def]
  unfold Cert.Spec.agg Cert.Spec.edgesTo
  refine congrArg (fun s : EReal => Cert.Spec.zero + s) ?_
  refine Finset.sum_congr (Finset.filter_congr fun e _ => by rw [val_main_v4_apply, dst_idx]) fun e _ => ?_
  rw [val_main_v2_apply, Ideal.mulf_def, val_main_v1_apply, val_main_v0_apply, wt_idx, mul_comm]

/-- The mean of the incoming messages at `(n, 0, d)`: the summed messages over the count clipped below at the word 1.0. -/
theorem v14_apply (x1 : (⟨S1600000x1x64, .f32⟩ : BufTy).Contents (Elt Ideal))
    (x2 : (⟨S1600000, .f32⟩ : BufTy).Contents (Elt Ideal)) (x3 : (⟨S1600000, .i32⟩ : BufTy).Contents (Elt Ideal))
    (n : Fin 100000) (d : Fin 64) :
    val_main_v14 (F := Ideal) x1 x2 x3 (ix3 n (0 : Fin 1) d)
      = Ideal.div (Cert.Spec.agg x1 x2 x3 n d) (max (val_main_v9 (F := Ideal) x3 (ix1 n)) Cert.Spec.one) := by
  rw [val_main_v14_apply, Ideal.hostDivf_def, v5_apply, val_main_v13_apply, val_main_v12_apply, cnt_idx,
    val_main_v11_apply, Ideal.maximumf_def, val_main_v10_apply, val_main_cst_2_apply, Ideal.ofBits_def]

/-- The joined row is the two-piece concatenation, along the feature axis, of the nodes' own features and the means. -/
theorem v15_eq (x0 : (⟨S100000x1x64, .f32⟩ : BufTy).Contents (Elt Ideal))
    (x1 : (⟨S1600000x1x64, .f32⟩ : BufTy).Contents (Elt Ideal))
    (x2 : (⟨S1600000, .f32⟩ : BufTy).Contents (Elt Ideal)) (x3 : (⟨S1600000, .i32⟩ : BufTy).Contents (Elt Ideal)) :
    val_main_v15 (F := Ideal) x0 x1 x2 x3
      = concatenate S100000x1x128 2 [⟨S100000x1x64, x0⟩, ⟨S100000x1x64, val_main_v14 (F := Ideal) x1 x2 x3⟩]
          Facts₀.concatenates_S100000x1x64_S100000x1x64_S100000x1x128_d2 := rfl

/-- The joined row at `(n, 0, f)`: the node's own feature for `f < 64`, else the mean of the incoming messages at
    feature `f - 64`. -/
theorem v15_apply (x0 : (⟨S100000x1x64, .f32⟩ : BufTy).Contents (Elt Ideal))
    (x1 : (⟨S1600000x1x64, .f32⟩ : BufTy).Contents (Elt Ideal))
    (x2 : (⟨S1600000, .f32⟩ : BufTy).Contents (Elt Ideal)) (x3 : (⟨S1600000, .i32⟩ : BufTy).Contents (Elt Ideal))
    (i : S100000x1x128.Idx) (f : Fin 128) :
    val_main_v15 (F := Ideal) x0 x1 x2 x3 (lidx_main_v16 i f)
      = Cert.Spec.hrow (fun n d => x0 (ix3 n (0 : Fin 1) d)) (Cert.Spec.agg x1 x2 x3)
          (fun n => val_main_v9 (F := Ideal) x3 (ix1 n)) ⟨(i 0).val, (i 0).isLt⟩ f := by
  have hi1 : (i 1).val = 0 := by
    have h1 : (i 1).val < 1 := (i 1).isLt
    omega
  rw [v15_eq]
  unfold Cert.Spec.hrow
  by_cases hf : f.val < 64
  · rw [dif_pos hf]
    exact concatenate_pair_apply_left (2 : Fin 3) x0 (val_main_v14 (F := Ideal) x1 x2 x3)
      Facts₀.concatenates_S100000x1x64_S100000x1x64_S100000x1x128_d2 (lidx_main_v16 i f) rfl
      (ix3 (⟨(i 0).val, (i 0).isLt⟩ : Fin 100000) (0 : Fin 1) (⟨f.val, hf⟩ : Fin 64))
      (fun b => match b with
        | ⟨0, _⟩ => rfl
        | ⟨1, _⟩ => hi1.symm
        | ⟨2, _⟩ => rfl)
  · rw [dif_neg hf]
    have hf2 : f.val - 64 < 64 := by have := f.isLt; omega
    rw [concatenate_pair_apply_right (2 : Fin 3) x0 (val_main_v14 (F := Ideal) x1 x2 x3)
      Facts₀.concatenates_S100000x1x64_S100000x1x64_S100000x1x128_d2 (lidx_main_v16 i f) rfl rfl
      (ix3 (⟨(i 0).val, (i 0).isLt⟩ : Fin 100000) (0 : Fin 1) (⟨f.val - 64, hf2⟩ : Fin 64))
      (fun b hb => match b, hb with
        | ⟨0, _⟩, _ => rfl
        | ⟨1, _⟩, _ => hi1.symm
        | ⟨2, _⟩, hb => absurd rfl hb)
      (by show f.val - 64 + 64 = f.val; omega),
      v14_apply]

/-- The reference's last stage is the specification, with the count vector the reference's own scatter of ones. -/
theorem result_eq (x0 : (⟨S100000x1x64, .f32⟩ : BufTy).Contents (Elt Ideal)) (x1 : (⟨S1600000x1x64, .f32⟩ : BufTy).Contents (Elt Ideal))
    (x2 : (⟨S1600000, .f32⟩ : BufTy).Contents (Elt Ideal)) (x3 : (⟨S1600000, .i32⟩ : BufTy).Contents (Elt Ideal))
    (x4 : (⟨S128x128, .f32⟩ : BufTy).Contents (Elt Ideal)) (x5 : (⟨S128, .f32⟩ : BufTy).Contents (Elt Ideal)) :
    val_main_v20 (F := Ideal) x0 x1 x2 x3 x4 x5 = Cert.Spec.out x0 x1 x2 x3 x4 x5 (val_main_v9 (F := Ideal) x3) := by
  funext i
  rw [val_main_v20_apply, Ideal.maximumf_def, val_main_v19_apply, Ideal.addf_def, val_main_v16_apply, val_main_v18_apply,
    val_main_v17_apply, bias_idx, val_main_call0_v0_apply, val_main_call0_cst_apply, Ideal.ofBits_def]
  unfold Cert.Spec.out Cert.Spec.outAt
  refine congrArg (fun s : EReal => max (s + x5 (ix1 (⟨(i 2).val, (i 2).isLt⟩ : Fin 128))) Cert.Spec.zero) ?_
  refine Finset.sum_congr rfl fun f _ => ?_
  rw [w_idx, v15_apply]

end Cert.ReferenceIdeal.RefValue

end
-- ==== Proof.lean ====
/-
  The five claims.

  Both programs compute, per node, the clipped affine image of the node's row of 128: its own 64 features beside the
  mean of the weighted feature rows of its incoming edges. The kernel program does it with two kernels (scale every
  edge row by its weight; concatenate, multiply into the transposed weights, add the bias, clip) around the host's
  scatter by destination; the reference does the same on the host over arrays with a unit middle axis. At the
  extended reals the only law between the two sides is the commutativity of the product of a weight and a feature;
  the count of incoming edges is the same scatter of ones on both sides and is never opened.

  The frames of the two kernel programs are the generated ones. The reference's frame is its generated run with the
  result dropped. The idealization rewrote nothing, so its claim is trivial. For the value claim the kernel program's
  run is read with the result buffer named (KernelRun), that buffer is read back through the segments to one term of
  the arguments (KernelValue over Region0 and Region1), the term is the specification (Glue), and so is the
  reference's last stage (RefValue).
-/
import proofs.«113882_j352187318566_1_alg».proof.Defs
import proofs.«113882_j352187318566_1_alg».proof.Proof.Gen.Kernel
import proofs.«113882_j352187318566_1_alg».proof.Proof.Gen.Kernel.Skeleton
import proofs.«113882_j352187318566_1_alg».proof.Proof.Gen.Kernel.Launch
import proofs.«113882_j352187318566_1_alg».proof.Proof.Gen.Kernel.Points
import proofs.«113882_j352187318566_1_alg».proof.Proof.Gen.Kernel.Frame
import proofs.«113882_j352187318566_1_alg».proof.Proof.Gen.KernelIdeal
import proofs.«113882_j352187318566_1_alg».proof.Proof.Gen.KernelIdeal.Skeleton
import proofs.«113882_j352187318566_1_alg».proof.Proof.Gen.KernelIdeal.Launch
import proofs.«113882_j352187318566_1_alg».proof.Proof.Gen.KernelIdeal.Points
import proofs.«113882_j352187318566_1_alg».proof.Proof.Gen.KernelIdeal.Frame
import proofs.«113882_j352187318566_1_alg».proof.Proof.Gen.ReferenceIdeal
import proofs.«113882_j352187318566_1_alg».proof.Proof.Gen.ReferenceIdeal.Run
import proofs.«113882_j352187318566_1_alg».proof.Proof.Gen.ReferenceIdeal.Read
import proofs.«113882_j352187318566_1_alg».proof.Proof.Gen.Pre_finite_inputs
import proofs.«113882_j352187318566_1_alg».proof.Proof.KernelRun
import proofs.«113882_j352187318566_1_alg».proof.Proof.KernelValue
import proofs.«113882_j352187318566_1_alg».proof.Proof.Glue
import proofs.«113882_j352187318566_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's function of the arguments; the two count vectors are one
    function of the destination words. -/
theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (Cert.KernelIdeal.Glue.cntK (m ((c.tc : Thread Cert.KernelIdeal.nD Cert.KernelIdeal.τ).loc Cert.KernelIdeal.main_arg3))), ?_, ?_⟩
  · exact (θ_run Cert.KernelIdeal.defs _ _).mono
      (fun r h c => ⟨(h c).1.trans ((Cert.KernelIdeal.KernelValue.out_eq m ρ c).trans (Cert.KernelIdeal.Glue.kernelTerm_eq _ _ _ _ _ _)), (h c).2⟩)
      (Cert.KernelIdeal.GenRun.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, Cert.ReferenceIdeal.RefValue.result_eq,
      (hagree c).1, (hagree c).2.1, (hagree c).2.2.1, (hagree c).2.2.2.1, (hagree c).2.2.2.2.1, (hagree c).2.2.2.2.2]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
